-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024 : Shape := ⟨2, ![2, 1024]⟩
abbrev S5x128 : Shape := ⟨2, ![5, 128]⟩
abbrev S128x256 : Shape := ⟨2, ![128, 256]⟩
abbrev S128 : Shape := ⟨1, ![128]⟩
abbrev S_ : Shape := ⟨0, ![]⟩

class Facts : Prop where
  bcast_S_S5x128 : S_.BroadcastsInDim S5x128 (![] : Fin 0 → Fin S5x128.rank)
  reducesTo_S5x128_S_d0_1 : S5x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S2x1024 32) (main_arg1 : FVec F S5x128 .f32) (main_arg2 : FVec F S128x256 .f32) (main_arg3 : FVec F S128 .f32) : IVec S_ 1 :=
  let main_v0 : FVec F S5x128 .f32 := Host.absf main_arg1
  let main_cst : FVec F S_ .f32 := constant S_ .f32 0x7F800000#32
  let main_v1 : FVec F S5x128 .f32 := broadcastInDim S5x128 ![] bcast_S_S5x128 main_cst
  let main_v2 : IVec S5x128 1 := cmpf .olt main_v0 main_v1
  let main_c : IVec S_ 1 := constantI S_ 1 1#1
  let main_v3 : IVec S_ 1 := (fun x v => Host.reduce IntOp.andi x v reducesTo_S5x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2x1024 : Shape := ⟨2, ![2, 1024]⟩
abbrev S5x128 : Shape := ⟨2, ![5, 128]⟩
abbrev S128x256 : Shape := ⟨2, ![128, 256]⟩
abbrev S128 : Shape := ⟨1, ![128]⟩
abbrev S2048 : Shape := ⟨1, ![2048]⟩
abbrev S_ : Shape := ⟨0, ![]⟩
abbrev S128x128 : Shape := ⟨2, ![128, 128]⟩
abbrev S128x1 : Shape := ⟨2, ![128, 1]⟩
abbrev S2048x128 : Shape := ⟨2, ![2048, 128]⟩
abbrev S2x1024x128 : Shape := ⟨3, ![2, 1024, 128]⟩
abbrev S2x128x1024 : Shape := ⟨3, ![2, 128, 1024]⟩
abbrev S512 : Shape := ⟨1, ![512]⟩
abbrev S512x128 : Shape := ⟨2, ![512, 128]⟩
abbrev S1x512x128 : Shape := ⟨3, ![1, 512, 128]⟩
abbrev S1x128x512 : Shape := ⟨3, ![1, 128, 512]⟩
abbrev S512x1 : Shape := ⟨2, ![512, 1]⟩
abbrev S1x128 : Shape := ⟨2, ![1, 128]⟩
abbrev S128x512 : Shape := ⟨2, ![128, 512]⟩
abbrev S2x128x1024x1024 : Shape := ⟨4, ![2, 128, 1024, 1024]⟩
abbrev S1x32x128 : Shape := ⟨3, ![1, 32, 128]⟩
abbrev S1x128x1024 : Shape := ⟨3, ![1, 128, 1024]⟩
abbrev S1x128x32x1024 : Shape := ⟨4, ![1, 128, 32, 1024]⟩
abbrev S32x128 : Shape := ⟨2, ![32, 128]⟩
abbrev S128x32 : Shape := ⟨2, ![128, 32]⟩
abbrev S128x1024 : Shape := ⟨2, ![128, 1024]⟩
abbrev S128x32x1 : Shape := ⟨3, ![128, 32, 1]⟩
abbrev S128x1x1024 : Shape := ⟨3, ![128, 1, 1024]⟩
abbrev S128x32x1024 : Shape := ⟨3, ![128, 32, 1024]⟩

abbrev nBuf : Space → Nat
  | .hbm => 32
  | .vmem => 18
  | .smem => 0
  | _ => 0

abbrev bufTy : (tb : Table) → Fin (tcTables nBuf tb) → BufTy
  | .hbm, ⟨0, _⟩ => ⟨S2x1024, .i32⟩
  | .hbm, ⟨1, _⟩ => ⟨S5x128, .f32⟩
  | .hbm, ⟨2, _⟩ => ⟨S128x256, .f32⟩
  | .hbm, ⟨3, _⟩ => ⟨S128, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .bf16⟩
  | .hbm, ⟨26, _⟩ => ⟨S128x1, .f32⟩
  | .hbm, ⟨27, _⟩ => ⟨S2048x128, .f32⟩
  | .hbm, ⟨28, _⟩ => ⟨S2x1024x128, .f32⟩
  | .hbm, ⟨29, _⟩ => ⟨S2x128x1024, .f32⟩
  | .hbm, ⟨30, _⟩ => ⟨S2x1024x128, .f32⟩
  | .hbm, ⟨31, _⟩ => ⟨S2x128x1024x1024, .f32⟩
  | .local _ .vmem, ⟨0, _⟩ => ⟨S512, .i32⟩
  | .local _ .vmem, ⟨1, _⟩ => ⟨S512, .i32⟩
  | .local _ .vmem, ⟨2, _⟩ => ⟨S5x128, .f32⟩
  | .local _ .vmem, ⟨3, _⟩ => ⟨S128x128, .bf16⟩
  | .local _ .vmem, ⟨4, _⟩ => ⟨S128x128, .bf16⟩
  | .local _ .vmem, ⟨5, _⟩ => ⟨S128x1, .f32⟩
  | .local _ .vmem, ⟨6, _⟩ => ⟨S512x128, .f32⟩
  | .local _ .vmem, ⟨7, _⟩ => ⟨S512x128, .f32⟩
  | .local _ .vmem, ⟨8, _⟩ => ⟨S1x512x128, .f32⟩
  | .local _ .vmem, ⟨9, _⟩ => ⟨S1x512x128, .f32⟩
  | .local _ .vmem, ⟨10, _⟩ => ⟨S1x128x512, .f32⟩
  | .local _ .vmem, ⟨11, _⟩ => ⟨S1x128x512, .f32⟩
  | .local _ .vmem, ⟨12, _⟩ => ⟨S1x32x128, .f32⟩
  | .local _ .vmem, ⟨13, _⟩ => ⟨S1x32x128, .f32⟩
  | .local _ .vmem, ⟨14, _⟩ => ⟨S1x128x1024, .f32⟩
  | .local _ .vmem, ⟨15, _⟩ => ⟨S1x128x1024, .f32⟩
  | .local _ .vmem, ⟨16, _⟩ => ⟨S1x128x32x1024, .f32⟩
  | .local _ .vmem, ⟨17, _⟩ => ⟨S1x128x32x1024, .f32⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2x1024_S2048 : S2x1024.ShapeCasts S2048
  bcast_S_S2048 : S_.BroadcastsInDim S2048 (![] : Fin 0 → Fin S2048.rank)
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  shapeCasts_S128_S128x1 : S128.ShapeCasts S128x1
  inb_S512_S512_0 : ∀ a, (![0] : Fin 1 → Nat) a + S512.size a ≤ S512.size a
  h_S512 : 0 < S512.numel
  shapeCasts_S512_S512 : S512.ShapeCasts S512
  natLt_1_32 : 1 < 32
  shapeCasts_S512_S512x1 : S512.ShapeCasts S512x1
  inb_S5x128_S1x128_0_0 : ∀ a, (![0, 0] : Fin 2 → Nat) a + S1x128.size a ≤ S5x128.size a
  h_S1x128 : 0 < S1x128.numel
  shapeCasts_S1x128_S128 : S1x128.ShapeCasts S128
  shapeCasts_S128_S1x128 : S128.ShapeCasts S1x128
  broadcasts_S512x1_S512x128 : S512x1.Broadcasts S512x128
  broadcasts_S1x128_S512x128 : S1x128.Broadcasts S512x128
  inb_S5x128_S1x128_1_0 : ∀ a, (![1, 0] : Fin 2 → Nat) a + S1x128.size a ≤ S5x128.size a
  inb_S5x128_S1x128_2_0 : ∀ a, (![2, 0] : Fin 2 → Nat) a + S1x128.size a ≤ S5x128.size a
  inb_S5x128_S1x128_3_0 : ∀ a, (![3, 0] : Fin 2 → Nat) a + S1x128.size a ≤ S5x128.size a
  inb_S5x128_S1x128_4_0 : ∀ a, (![4, 0] : Fin 2 → Nat) a + S1x128.size a ≤ S5x128.size a
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  transposes_S512x128_p1_0_S128x512 : S512x128.Transposes [1, 0] S128x512
  broadcasts_S128x1_S128x512 : S128x1.Broadcasts S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  shapeCasts_S2048x128_S2x1024x128 : S2048x128.ShapeCasts S2x1024x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  transposes_S32x128_p1_0_S128x32 : S32x128.Transposes [1, 0] S128x32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x32_S128x32x1 : S128x32.ShapeCasts S128x32x1
  shapeCasts_S128x1024_S128x1x1024 : S128x1024.ShapeCasts S128x1x1024
  broadcasts_S128x32x1_S128x32x1024 : S128x32x1.Broadcasts S128x32x1024
  broadcasts_S128x1x1024_S128x32x1024 : S128x1x1024.Broadcasts S128x32x1024
  inb_S1x128x32x1024_S1x128x32x1024_0_0_0_0 : ∀ a, (![0, 0, 0, 0] : Fin 4 → Nat) a + S1x128x32x1024.size a ≤ S1x128x32x1024.size a
  h_S1x128x32x1024 : 0 < S1x128x32x1024.numel
  shapeCasts_S1x128x32x1024_S128x32x1024 : S1x128x32x1024.ShapeCasts S128x32x1024
  shapeCasts_S128x32x1024_S1x128x32x1024 : S128x32x1024.ShapeCasts S1x128x32x1024
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S2048.size a
  hwx0_0 : ∀ i : grid0.Coords, EltTy.bits .i32 = 32 ∨ (Rect.block (s := S2048) S512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S2048x128.size a
  hwx0_5 : ∀ i : grid0.Coords, EltTy.bits .f32 = 32 ∨ (Rect.block (s := S2048x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x128.size a ≤ S2x1024x128.size a
  hwx0_6 : ∀ i : grid0.Coords, EltTy.bits .f32 = 32 ∨ (Rect.block (s := S2x1024x128) S1x512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x512.size a ≤ S2x128x1024.size a
  hwx0_7 : ∀ i : grid0.Coords, EltTy.bits .f32 = 32 ∨ (Rect.block (s := S2x128x1024) S1x128x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x128.size a ≤ S2x1024x128.size a
  hwx1_0 : ∀ i : grid1.Coords, EltTy.bits .f32 = 32 ∨ (Rect.block (s := S2x1024x128) S1x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1024.size a ≤ S2x128x1024.size a
  hwx1_1 : ∀ i : grid1.Coords, EltTy.bits .f32 = 32 ∨ (Rect.block (s := S2x128x1024) S1x128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x32x1024.size a ≤ S2x128x1024x1024.size a
  hwx1_2 : ∀ i : grid1.Coords, EltTy.bits .f32 = 32 ∨ (Rect.block (s := S2x128x1024x1024) S1x128x32x1024.size (cc1_transform_2 i) (hinb1_2 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v6) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x512x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_2) S1x128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14_1) S1x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_2) S1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128x32x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x1024 : Shape := ⟨2, ![2, 1024]⟩
abbrev S5x128 : Shape := ⟨2, ![5, 128]⟩
abbrev S128x256 : Shape := ⟨2, ![128, 256]⟩
abbrev S128 : Shape := ⟨1, ![128]⟩
abbrev S_ : Shape := ⟨0, ![]⟩
abbrev S2x1024x1 : Shape := ⟨3, ![2, 1024, 1]⟩
abbrev S2x1024x128 : Shape := ⟨3, ![2, 1024, 128]⟩
abbrev S128x128 : Shape := ⟨2, ![128, 128]⟩
abbrev S2x1024x1x128 : Shape := ⟨4, ![2, 1024, 1, 128]⟩
abbrev S2x1x1024x128 : Shape := ⟨4, ![2, 1, 1024, 128]⟩
abbrev S2x1024x1024x128 : Shape := ⟨4, ![2, 1024, 1024, 128]⟩
abbrev S1x1x1x128 : Shape := ⟨4, ![1, 1, 1, 128]⟩
abbrev S2x128x1024x1024 : Shape := ⟨4, ![2, 128, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x1024, .i32⟩
  | .hbm, ⟨1, _⟩ => ⟨S5x128, .f32⟩
  | .hbm, ⟨2, _⟩ => ⟨S128x256, .f32⟩
  | .hbm, ⟨3, _⟩ => ⟨S128, .f32⟩
  | .hbm, ⟨4, _⟩ => ⟨S_, .i32⟩
  | .hbm, ⟨5, _⟩ => ⟨S2x1024, .i32⟩
  | .hbm, ⟨6, _⟩ => ⟨S2x1024, .i1⟩
  | .hbm, ⟨7, _⟩ => ⟨S_, .i32⟩
  | .hbm, ⟨8, _⟩ => ⟨S2x1024, .i32⟩
  | .hbm, ⟨9, _⟩ => ⟨S2x1024, .i32⟩
  | .hbm, ⟨10, _⟩ => ⟨S2x1024, .i32⟩
  | .hbm, ⟨11, _⟩ => ⟨S2x1024x1, .i32⟩
  | .hbm, ⟨12, _⟩ => ⟨S2x1024x128, .f32⟩
  | .hbm, ⟨13, _⟩ => ⟨S128x128, .f32⟩
  | .hbm, ⟨14, _⟩ => ⟨S128x128, .f32⟩
  | .hbm, ⟨15, _⟩ => ⟨S2x1024x128, .f32⟩
  | .hbm, ⟨16, _⟩ => ⟨S2x1024x128, .f32⟩
  | .hbm, ⟨17, _⟩ => ⟨S2x1024x1x128, .f32⟩
  | .hbm, ⟨18, _⟩ => ⟨S2x1x1024x128, .f32⟩
  | .hbm, ⟨19, _⟩ => ⟨S2x1024x1024x128, .f32⟩
  | .hbm, ⟨20, _⟩ => ⟨S2x1024x1024x128, .f32⟩
  | .hbm, ⟨21, _⟩ => ⟨S2x1024x1024x128, .f32⟩
  | .hbm, ⟨22, _⟩ => ⟨S1x1x1x128, .f32⟩
  | .hbm, ⟨23, _⟩ => ⟨S2x1024x1024x128, .f32⟩
  | .hbm, ⟨24, _⟩ => ⟨S2x1024x1024x128, .f32⟩
  | .hbm, ⟨25, _⟩ => ⟨S2x128x1024x1024, .f32⟩
  | _, _ => ⟨S2x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  slices_S128x256_S128x128_0_0 : S128x256.Slices ![0, 0] S128x128
  slices_S128x256_S128x128_0_128 : S128x256.Slices ![0, 128] S128x128
  bcast_S2x1024x128_S2x1024x1x128_0_1_3 : S2x1024x128.BroadcastsInDim S2x1024x1x128 (![0, 1, 3] : Fin 3 → Fin S2x1024x1x128.rank)
  bcast_S2x1024x128_S2x1x1024x128_0_2_3 : S2x1024x128.BroadcastsInDim S2x1x1024x128 (![0, 2, 3] : Fin 3 → Fin S2x1x1024x128.rank)
  bcast_S2x1024x1x128_S2x1024x1024x128_0_1_2_3 : S2x1024x1x128.BroadcastsInDim S2x1024x1024x128 (![0, 1, 2, 3] : Fin 4 → Fin S2x1024x1024x128.rank)
  bcast_S2x1x1024x128_S2x1024x1024x128_0_1_2_3 : S2x1x1024x128.BroadcastsInDim S2x1024x1024x128 (![0, 1, 2, 3] : Fin 4 → Fin S2x1024x1024x128.rank)
  bcast_S128_S1x1x1x128_3 : S128.BroadcastsInDim S1x1x1x128 (![3] : Fin 1 → Fin S1x1x1x128.rank)
  bcast_S1x1x1x128_S2x1024x1024x128_0_1_2_3 : S1x1x1x128.BroadcastsInDim S2x1024x1024x128 (![0, 1, 2, 3] : Fin 4 → Fin S2x1024x1024x128.rank)
  transposes_S2x1024x1024x128_S2x128x1024x1024_0_3_1_2 : S2x1024x1024x128.Transposes [0, 3, 1, 2] S2x128x1024x1024
  gather_S5x128_S2x1024x1_S2x1024x128_2_0_n_n_0_2_1128_wf : GatherDims.WF S5x128 S2x1024x1 S2x1024x128 [2] [0] [] [0] [] 2 ![1, 128]
  dot_S2x1024x128_S128x128_S2x1024x128_2_1_01_0_n_n_wf : DotDims.WF S2x1024x128 S128x128 S2x1024x128 [2] [1] [0, 1] [0] [] []

variable [Facts₀]

def gather_S5x128_S2x1024x1_S2x1024x128_2_0_n_n_0_2_1128 : GatherDims S5x128 S2x1024x1 S2x1024x128 where
  offsetDims := [2]
  collapsedSliceDims := [0]
  operandBatchingDims := []
  startIndicesBatchingDims := []
  startIndexMap := [0]
  indexVectorDim := 2
  sliceSizes := ![1, 128]
  wf := gather_S5x128_S2x1024x1_S2x1024x128_2_0_n_n_0_2_1128_wf
def dot_S2x1024x128_S128x128_S2x1024x128_2_1_01_0_n_n : DotDims S2x1024x128 S128x128 S2x1024x128 where
  lhsContracting := [2]
  rhsContracting := [1]
  lhsNonContracting := [0, 1]
  rhsNonContracting := [0]
  lhsBatch := []
  rhsBatch := []
  wf := dot_S2x1024x128_S128x128_S2x1024x128_2_1_01_0_n_n_wf

class Facts : Prop extends Facts₀ where

variable [Facts]
-- ==== Proof.Spec.lean ====
/-
  The mathematics both programs compute, stated once over the extended reals, with no program in sight.

  A token index is read as a signed 32-bit integer; a negative one counts from the end of the five-row table
  (`wrap`: five is added), and what is then still outside 0..4 is clamped to the nearest end (`row`).  The first
  result is the table row each token names.  The second pairs tokens: with `P₁` and `P₂` the projections of a
  token's row through the left and the right half of the weight matrix (sums over the 128 features), entry
  (b, e, i, j) is `P₁(b, i, e) + (P₂(b, j, e) + bias(e))`.

  Two small facts about words are proved here as well: clamping by a signed maximum with 0 and a signed minimum
  with 4 yields the word of `row`; and adding up the five table rows, each times the 0/1 indicator that the
  clamped index equals that row's number, leaves exactly the named row (`0 · x = 0` and `0 + x = x` hold for
  every extended real, so nothing is asked of the table's entries).
-/
import Idealize.ShloMosaic.PureOps.Ideal
import Idealize.ShloMosaic.PureOps.Ideal.Laws
import Idealize.ShloMosaic.Lib.ValueIdx

noncomputable section

open scoped BigOperators

namespace Cert.EmbedPair

open Idealize.ShloMosaic Idealize.ShloMosaic.ValueIdx

/-! ## Words: wrapping and clamping a token index -/

/-- A negative index counts from the end of the five-row table. -/
def wrap (v : BitVec 32) : BitVec 32 := Scalar.select (IntOp.cmpi .slt v 0#32) (IntOp.addi v 5#32) v

/-- The table row a (wrapped) index names: read signed, clamped into 0..4. -/
def row (w : BitVec 32) : Fin 5 := ⟨min w.toInt.toNat 4, by omega⟩

/-- Signed maximum with 0, then signed minimum with 4, is the word of `row`. -/
theorem clip_eq_row (w : BitVec 32) : IntOp.minsi 4#32 (IntOp.maxsi 0#32 w) = BitVec.ofNat 32 (row w).val := by
  have hw : w.toNat < 4294967296 := w.isLt
  have hwi : (2 * w.toNat < 4294967296 ∧ w.toInt = (w.toNat : Int)) ∨ (4294967296 ≤ 2 * w.toNat ∧ w.toInt = (w.toNat : Int) - 4294967296) := by
    have h := BitVec.toInt_eq_toNat_cond w
    by_cases hc : 2 * w.toNat < 2 ^ 32
    · left; rw [if_pos hc] at h; exact ⟨by omega, h⟩
    · right; rw [if_neg hc] at h; exact ⟨by omega, by rw [h]; norm_num⟩
  have h0 : (0#32 : BitVec 32).toInt = 0 := by decide
  have h4 : (4#32 : BitVec 32).toInt = 4 := by decide
  have n0 : (0#32 : BitVec 32).toNat = 0 := by decide
  have n4 : (4#32 : BitVec 32).toNat = 4 := by decide
  apply BitVec.eq_of_toNat_eq
  unfold IntOp.minsi IntOp.maxsi row
  simp only [BitVec.slt, BitVec.toNat_ofNat]
  split_ifs with a b b <;> simp only [decide_eq_true_eq, h0, h4, n0, n4, not_lt] at * <;> omega

/-- The 0/1 indicator, as an extended real, that a word equals the number `k`: the comparison's bit widened to a
    32-bit integer and read as a real. -/
def ind (c : BitVec 32) (k : Nat) : EReal :=
  FloatOps.sitofp (F := Ideal) .f32 ((IntOp.cmpi .eq c (BitVec.ofNat 32 k)).setWidth 32)

theorem ind_self (r : Fin 5) : ind (BitVec.ofNat 32 r.val) r.val = 1 := by
  fin_cases r <;> (show (((BitVec.setWidth 32 (IntOp.cmpi .eq _ _)).toInt : ℝ) : EReal) = 1) <;>
    (rw [show (BitVec.setWidth 32 (IntOp.cmpi .eq (BitVec.ofNat 32 _) (BitVec.ofNat 32 _))).toInt = 1 by decide]; simp)

theorem ind_ne (r : Fin 5) (k : Fin 5) (h : r ≠ k) : ind (BitVec.ofNat 32 r.val) k.val = 0 := by
  fin_cases r <;> fin_cases k <;> first
    | exact absurd rfl h
    | (show (((BitVec.setWidth 32 (IntOp.cmpi .eq _ _)).toInt : ℝ) : EReal) = 0
       rw [show (BitVec.setWidth 32 (IntOp.cmpi .eq (BitVec.ofNat 32 _) (BitVec.ofNat 32 _))).toInt = 0 by decide]; simp)

/-- Summing the five rows' entries, each times the indicator of its row, from zero and in order, leaves the entry
    of the named row. -/
theorem onehot_sum (r : Fin 5) (e0 e1 e2 e3 e4 : EReal) :
    ((((0 + ind (BitVec.ofNat 32 r.val) 0 * e0) + ind (BitVec.ofNat 32 r.val) 1 * e1) + ind (BitVec.ofNat 32 r.val) 2 * e2)
        + ind (BitVec.ofNat 32 r.val) 3 * e3) + ind (BitVec.ofNat 32 r.val) 4 * e4
      = (![e0, e1, e2, e3, e4] : Fin 5 → EReal) r := by
  have key : ∀ k : Fin 5, ind (BitVec.ofNat 32 r.val) k.val = if r = k then 1 else 0 := fun k => by
    by_cases h : r = k
    · subst h; rw [if_pos rfl]; exact ind_self r
    · rw [if_neg h]; exact ind_ne r k h
  have k0 : ind (BitVec.ofNat 32 r.val) 0 = if r = 0 then 1 else 0 := key 0
  have k1 : ind (BitVec.ofNat 32 r.val) 1 = if r = 1 then 1 else 0 := key 1
  have k2 : ind (BitVec.ofNat 32 r.val) 2 = if r = 2 then 1 else 0 := key 2
  have k3 : ind (BitVec.ofNat 32 r.val) 3 = if r = 3 then 1 else 0 := key 3
  have k4 : ind (BitVec.ofNat 32 r.val) 4 = if r = 4 then 1 else 0 := key 4
  rw [k0, k1, k2, k3, k4]
  fin_cases r <;> simp

/-! ## The two results -/

abbrev STok : Shape := ⟨2, ![2, 1024]⟩
abbrev STab : Shape := ⟨2, ![5, 128]⟩
abbrev SW : Shape := ⟨2, ![128, 256]⟩
abbrev SB : Shape := ⟨1, ![128]⟩
abbrev SEmb : Shape := ⟨3, ![2, 1024, 128]⟩
abbrev SPair : Shape := ⟨4, ![2, 128, 1024, 1024]⟩

variable (x : STok.Idx → BitVec 32) (T : STab.Idx → EReal) (W : SW.Idx → EReal) (bias : SB.Idx → EReal)

/-- The table row token (b, l) names. -/
def tokRow (b : Fin 2) (l : Fin 1024) : Fin 5 := row (wrap (x (ix2 b l)))

/-- Feature `d` of the row token (b, l) names. -/
def embAt (b : Fin 2) (l : Fin 1024) (d : Fin 128) : EReal := T (ix2 (tokRow x b l) d)

/-- Token (b, l)'s row through the LEFT half of the weights, output feature `e`. -/
def proj1At (b : Fin 2) (l : Fin 1024) (e : Fin 128) : EReal :=
  ∑ k : Fin 128, embAt x T b l k * W (ix2 e (⟨k.val, by omega⟩ : Fin 256))

/-- Token (b, l)'s row through the RIGHT half of the weights, output feature `e`. -/
def proj2At (b : Fin 2) (l : Fin 1024) (e : Fin 128) : EReal :=
  ∑ k : Fin 128, embAt x T b l k * W (ix2 e (⟨128 + k.val, by omega⟩ : Fin 256))

/-- The pair entry: token i's left projection, plus token j's right projection with the bias. -/
def pairAt (b : Fin 2) (e : Fin 128) (i j : Fin 1024) : EReal :=
  proj1At x T W b i e + (proj2At x T W b j e + bias (ix1 e))

/-- The first result as an array. -/
def embArr : SEmb.Idx → EReal := fun i => embAt x T (i 0) (i 1) (i 2)

/-- The second result as an array. -/
def pairArr : SPair.Idx → EReal := fun i => pairAt x T W bias (i 0) (i 1) (i 2) (i 3)

/-- Grouping the three summands the other way gives the same entry: addition of extended reals is associative. -/
theorem pairAt_assoc (b : Fin 2) (e : Fin 128) (i j : Fin 1024) :
    (proj1At x T W b i e + proj2At x T W b j e) + bias (ix1 e) = pairAt x T W bias b e i j := by
  unfold pairAt; exact add_assoc _ _ _

end Cert.EmbedPair

end
-- ==== Proof.Pay0Layout.lean ====
/-
  Region 0's body at one entry, at the ideal values.

  The body gathers by arithmetic: for each of the five table rows it forms the 0/1 indicator "this token's (already
  clamped) index is that row's number" as a column over the 512 tokens of the block, multiplies it into the row
  spread over the 512 tokens, and adds the five products up from zero.  At entry (r, d) of the block this is the
  five-term indicator sum of `Spec` over the entries (k, d) of the table, with the indicators taken at token r's index.
-/
import proofs.«416537_j11304353923370_3_alg».proof.Proof.Gen.KernelIdeal.Skeleton
import proofs.«416537_j11304353923370_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.EmbedPair
open Idealize.ShloMosaic Idealize.ShloMosaic.ValueIdx

/-! ## Layout: a column and a row spread over the 512 × 128 block; one table row loaded -/

/-- A length-512 vector made a column and spread along the 128 features reads, at (r, d), its entry r. -/
theorem col_spread {α : Type} (v : S512.Idx → α) (h1 : S512.ShapeCasts S512x1) (h2 : S512x1.Broadcasts S512x128)
    (r : Fin 512) (d : Fin 128) :
    broadcastTo S512x128 (shapeCast S512x1 v h1) h2 (ix2 r d) = v (ix1 r) := by
  rw [broadcastTo_apply _ h2 (ix2 r d) (ix2 r (0 : Fin 1)) (fun a => by
      match a with
      | ⟨0, _⟩ => show r.val = if (512 : Nat) = 1 then 0 else r.val; rw [if_neg (by decide)]
      | ⟨1, _⟩ => show (0 : Nat) = if (1 : Nat) = 1 then 0 else d.val; rw [if_pos rfl])]
  exact shapeCast_apply v h1 (ix2 r (0 : Fin 1)) (ix1 r) (by
    rw [Shape.rowMajor_val_one, Shape.rowMajor_val_two]; show r.val = r.val * 1 + 0; omega)

/-- A 1 × 128 row spread along the 512 tokens reads, at (r, d), its entry d. -/
theorem row_spread {α : Type} (v : S1x128.Idx → α) (h : S1x128.Broadcasts S512x128) (r : Fin 512) (d : Fin 128) :
    broadcastTo S512x128 v h (ix2 r d) = v (ix2 (0 : Fin 1) d) :=
  broadcastTo_apply v h (ix2 r d) (ix2 (0 : Fin 1) d) (fun a => by
    match a with
    | ⟨0, _⟩ => show (0 : Nat) = if (1 : Nat) = 1 then 0 else r.val; rw [if_pos rfl]
    | ⟨1, _⟩ => show d.val = if (128 : Nat) = 1 then 0 else d.val; rw [if_neg (by decide)])

/-- Row n of the table, loaded as a 1 × 128 vector, reads at (0, d) the table's entry (n, d). -/
theorem ld_row (T : Vec Ideal S5x128 .f32) (n : Nat) (hn : n < 5) (inb : ∀ a, (![n, 0] : Fin 2 → Nat) a + S1x128.size a ≤ S5x128.size a) (d : Fin 128) :
    View.ld T (Rect.unit (s := S5x128) ![n, 0] S1x128.size inb) (ix2 (0 : Fin 1) d) = T (ix2 (⟨n, hn⟩ : Fin 5) d) := by
  show T ((Rect.unit (s := S5x128) ![n, 0] S1x128.size inb).emb (ix2 (0 : Fin 1) d)) = T (ix2 (⟨n, hn⟩ : Fin 5) d)
  refine congrArg T (funext fun a => Fin.ext ?_)
  match a with
  | ⟨0, _⟩ => show n + 1 * 0 = n; omega
  | ⟨1, _⟩ => show 0 + 1 * d.val = d.val; omega

end Cert.KernelIdeal.Pay

end
-- ==== Proof.Pay0.lean ====
/-
  Region 0's three stores at one entry, at the ideal values, over the body's loaded blocks as variables.

  With `tok` the block's 512 clamped token words, `T` the table, `A` and `B` the two transposed weight halves and
  `col` the bias column:
  * the first store, at (r, d), is the five-term indicator sum over the table's entries (k, d) at token r's word;
  * the second, at (0, r, e), is the sum over the features k of (first store at (r, k)) · A(k, e) — the product
    into a zero accumulator is the plain sum, and narrowing an operand to bf16 changes nothing at the ideal values;
  * the third, at (0, e, r), is the same sum with B, transposed, plus col(e, 0).
-/
import proofs.«416537_j11304353923370_3_alg».proof.Proof.Pay0Layout
import proofs.«416537_j11304353923370_3_alg».proof.Proof.Gen.KernelIdeal.Frame

noncomputable section

open scoped BigOperators

namespace Cert.KernelIdeal.Pay

open Cert.KernelIdeal Cert.KernelIdeal.Gen Cert.EmbedPair
open Idealize.ShloMosaic Idealize.ShloMosaic.ValueIdx

/-- The five-term indicator sum at token word `w` over the table's column `d`. -/
def sel (w : BitVec 32) (T : Vec Ideal S5x128 .f32) (d : Fin 128) : EReal :=
  ((((0 + ind w 0 * T (ix2 (0 : Fin 5) d)) + ind w 1 * T (ix2 (1 : Fin 5) d)) + ind w 2 * T (ix2 (2 : Fin 5) d))
      + ind w 3 * T (ix2 (3 : Fin 5) d)) + ind w 4 * T (ix2 (4 : Fin 5) d)

/-- When the word is a row's number, the indicator sum is that row's entry. -/
theorem sel_row (r : Fin 5) (T : Vec Ideal S5x128 .f32) (d : Fin 128) : sel (BitVec.ofNat 32 r.val) T d = T (ix2 r d) := by
  unfold sel
  rw [onehot_sum]
  fin_cases r <;> rfl

variable (tok : Vec Ideal S512 .i32) (T : Vec Ideal S5x128 .f32)

/-- The body's one-hot value (its `%62`) over whole-block loads of the tokens and row loads of the table. -/
abbrev onehotVal : FVec Ideal S512x128 .f32 :=
  k0_pay4 (k0_pay1 tok) (k0_pay2 tok (View.ld T r0_1) (View.ld T r0_2) (View.ld T r0_3)) (k0_pay3 tok) (View.ld T r0_4) (View.ld T r0_5)

/-- The indicator column of row number `n`, spread over the block, at (r, d). -/
theorem mask_apply (v1 : IVec S512 32) (n : Nat) (h1 : S512.ShapeCasts S512x1) (h2 : S512x1.Broadcasts S512x128) (hlt : 1 < 32)
    (r : Fin 512) (d : Fin 128) :
    broadcastTo S512x128 (shapeCast S512x1 (sitofp (F := Ideal) .f32 (extui 32 (cmpi .eq v1 (broadcast S512 (BitVec.ofNat 32 n))) hlt)) h1) h2 (ix2 r d)
      = ind (v1 (ix1 r)) n := by
  rw [col_spread]
  rfl

/-- A loaded table row, re-cast to a vector and back and spread over the block, at (r, d). -/
theorem trow_apply (n : Nat) (hn : n < 5) (inb : ∀ a, (![n, 0] : Fin 2 → Nat) a + S1x128.size a ≤ S5x128.size a)
    (ha : S1x128.ShapeCasts S128) (hb : S128.ShapeCasts S1x128) (hc : S1x128.Broadcasts S512x128) (r : Fin 512) (d : Fin 128) :
    broadcastTo S512x128 (shapeCast S1x128 (shapeCast S128 (View.ld T (Rect.unit (s := S5x128) ![n, 0] S1x128.size inb)) ha) hb) hc (ix2 r d)
      = T (ix2 (⟨n, hn⟩ : Fin 5) d) := by
  rw [shapeCast_shapeCast, row_spread, ld_row T n hn]

/-- THE FIRST STORE at (r, d). -/
theorem onehotVal_apply (r : Fin 512) (d : Fin 128) : onehotVal tok T (ix2 r d) = sel (tok (ix1 r)) T d := by
  unfold onehotVal k0_pay4 k0_pay2 k0_pay3 k0_pay1 sel
  simp only [addf_apply, mulf_apply, shapeCast_self]
  rw [mask_apply tok 0, mask_apply tok 1, mask_apply tok 2, mask_apply tok 3, mask_apply tok 4]
  rw [trow_apply T 0 (by decide), trow_apply T 1 (by decide), trow_apply T 2 (by decide), trow_apply T 3 (by decide), trow_apply T 4 (by decide)]
  simp only [broadcast_apply, Ideal.ofBits_def, Ideal.ofBits_zero_f32]
  rfl

end Cert.KernelIdeal.Pay

end
-- ==== Proof.Pay0Mat.lean ====
/-
  Region 0's second and third stores at one entry.

  The body multiplies the 512 × 128 block of selected rows (narrowed to bf16: the identity at the ideal values)
  by a 128 × 128 transposed weight half, into a zero accumulator: at (r, e) that is the sum over the features k of
  block(r, k) · half(k, e).  The second store is that product under a leading unit axis; the third is the product
  with the other half, transposed, plus the bias column spread along the tokens, under a leading unit axis.
-/
import proofs.«416537_j11304353923370_3_alg».proof.Proof.Pay0

noncomputable section

open scoped BigOperators

namespace Cert.KernelIdeal.Pay

open Cert.KernelIdeal Cert.KernelIdeal.Gen Cert.EmbedPair
open Idealize.ShloMosaic Idealize.ShloMosaic.ValueIdx

/-! ## The block-times-half product as a sum over the features -/

theorem mm_lhs_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mm_lhs_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem mm_rhs_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem mm_rhs_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product into a zero accumulator, at (r, e): the sum over k of left(r, k) · right(k, e). -/
theorem mm_apply (Lh : FVec Ideal S512x128 .bf16) (Rh : FVec Ideal S128x128 .bf16) (r : Fin 512) (e : Fin 128) :
    matmul dot_S512x128_S128x128_S512x128_1_0_0_1_n_n none Lh Rh (constant S512x128 .f32 0x00000000#32) (ix2 r e)
      = ∑ k : Fin 128, Lh (ix2 r k) * Rh (ix2 k e) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r e) ((contrEquiv1 dot_S512x128_S128x128_S512x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S512x128_S128x128_S512x128_1_0_0_1_n_n.rhsIdx (ix2 r e) ((contrEquiv1 dot_S512x128_S128x128_S512x128_1_0_0_1_n_n 128 rfl rfl).symm k) = ix2 k e := funext fun a => Fin.ext (by
    match a with
    | ⟨0, _⟩ => exact (mm_rhs_0 _ _).trans hk
    | ⟨1, _⟩ => exact mm_rhs_1 _ _)
  rw [el, er]

/-! ## The second and third stores -/

variable (tok : Vec Ideal S512 .i32) (T : Vec Ideal S5x128 .f32) (A B : Vec Ideal S128x128 .bf16) (col : Vec Ideal S128x1 .f32)

/-- The body's second store (its `%75`). -/
abbrev proj1Val : FVec Ideal S1x512x128 .f32 :=
  k0_pay6 (k0_pay1 tok) (k0_pay2 tok (View.ld T r0_1) (View.ld T r0_2) (View.ld T r0_3)) (k0_pay3 tok) (View.ld T r0_4) (View.ld T r0_5) A

/-- The body's third store (its `%81`). -/
abbrev proj2tVal : FVec Ideal S1x128x512 .f32 :=
  k0_pay7 (k0_pay1 tok) (k0_pay2 tok (View.ld T r0_1) (View.ld T r0_2) (View.ld T r0_3)) (k0_pay3 tok) (View.ld T r0_4) (View.ld T r0_5) B col

/-- THE SECOND STORE at (0, r, e). -/
theorem proj1Val_apply (r : Fin 512) (e : Fin 128) :
    proj1Val tok T A (ix3 (0 : Fin 1) r e) = ∑ k : Fin 128, sel (tok (ix1 r)) T k * A (ix2 k e) := by
  unfold proj1Val k0_pay6 k0_pay5
  dsimp only
  rw [shapeCast_addUnit_apply ![512, 128] _ shapeCasts_S512x128_S1x512x128 (ix3 (0 : Fin 1) r e)]
  rw [show (fun a : Fin 2 => (ix3 (0 : Fin 1) r e) a.succ) = ix2 r e from funext fun a => by
    match a with
    | ⟨0, _⟩ => rfl
    | ⟨1, _⟩ => rfl]
  rw [shapeCast_self, mm_apply]
  refine Finset.sum_congr rfl fun k _ => ?_
  rw [truncf_apply]
  exact congrArg (· * A (ix2 k e)) (onehotVal_apply tok T r k)

/-- THE THIRD STORE at (0, e, r). -/
theorem proj2tVal_apply (e : Fin 128) (r : Fin 512) :
    proj2tVal tok T B col (ix3 (0 : Fin 1) e r) = (∑ k : Fin 128, sel (tok (ix1 r)) T k * B (ix2 k e)) + col (ix2 e (0 : Fin 1)) := by
  unfold proj2tVal k0_pay7 k0_pay5
  dsimp only
  rw [shapeCast_addUnit_apply ![128, 512] _ shapeCasts_S128x512_S1x128x512 (ix3 (0 : Fin 1) e r)]
  rw [show (fun a : Fin 2 => (ix3 (0 : Fin 1) e r) a.succ) = ix2 e r from funext fun a => by
    match a with
    | ⟨0, _⟩ => rfl
    | ⟨1, _⟩ => rfl]
  rw [addf_apply]
  rw [transpose_apply [1, 0] _ transposes_S512x128_p1_0_S128x512 (ix2 e r) (ix2 r e) (fun b => by
    match b with
    | ⟨0, _⟩ => rfl
    | ⟨1, _⟩ => rfl)]
  rw [shapeCast_self, mm_apply]
  rw [broadcastTo_apply _ broadcasts_S128x1_S128x512 (ix2 e r) (ix2 e (0 : Fin 1)) (fun a => by
    match a with
    | ⟨0, _⟩ => show e.val = if (128 : Nat) = 1 then 0 else e.val; rw [if_neg (by decide)]
    | ⟨1, _⟩ => show (0 : Nat) = if (1 : Nat) = 1 then 0 else r.val; rw [if_pos rfl])]
  rw [shapeCast_self]
  refine congrArg (· + col (ix2 e (0 : Fin 1))) (Finset.sum_congr rfl fun k _ => ?_)
  rw [truncf_apply]
  exact congrArg (· * B (ix2 k e)) (onehotVal_apply tok T r k)

end Cert.KernelIdeal.Pay

end
-- ==== Proof.Region0.lean ====
/-
  Region 0 as whole arrays.

  The first pallas_call runs over four grid points; point t takes tokens 512·t … 512·t + 511 of the flattened
  (wrapped, clamped) token array and the whole table, the two transposed weight halves and the bias column.  It
  writes back three blocks: rows 512·t … of the selected-rows array (2048 × 128); block (t / 2, t % 2) of the first
  projection (2 × 1024 × 128, 512 tokens per block); and the same block of the second projection stored feature-major
  (2 × 128 × 1024) with the bias added.  The blocks of each output tile its array, so after the last point each
  array is one function of the region's input arrays:
  * selected rows: entry (n, d) is the indicator sum at token n's word over the table's column d;
  * first projection: entry (b, l, e) is the sum over k of (selected row of token 1024·b + l at k) · A(k, e);
  * second projection: entry (b, e, l) is that sum with B, plus col(e, 0).
-/
import proofs.«416537_j11304353923370_3_alg».proof.Proof.Pay0Mat
import Idealize.ShloMosaic.Lib.Pipeline.Value

set_option maxRecDepth 16384

noncomputable section

open scoped BigOperators

namespace Cert.KernelIdeal.Region0

open Cert.KernelIdeal Cert.KernelIdeal.Gen Cert.EmbedPair Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The region's input arrays and blocks, by their literal types -/

abbrev aTok (c : Dev nD) : Vec Ideal S2048 .i32 := V c main_v6
abbrev aTab (c : Dev nD) : Vec Ideal S5x128 .f32 := V c main_arg1
abbrev aA (c : Dev nD) : Vec Ideal S128x128 .bf16 := V c main_v10
abbrev aB (c : Dev nD) : Vec Ideal S128x128 .bf16 := V c main_v12
abbrev aCol (c : Dev nD) : Vec Ideal S128x1 .f32 := V c main_v13

abbrev bTok (c : Dev nD) (t : Fin cfg0.N) : Vec Ideal S512 .i32 := iblk0 V c 0 t
abbrev bTab (c : Dev nD) (t : Fin cfg0.N) : Vec Ideal S5x128 .f32 := iblk0 V c 1 t
abbrev bA (c : Dev nD) (t : Fin cfg0.N) : Vec Ideal S128x128 .bf16 := iblk0 V c 2 t
abbrev bB (c : Dev nD) (t : Fin cfg0.N) : Vec Ideal S128x128 .bf16 := iblk0 V c 3 t
abbrev bCol (c : Dev nD) (t : Fin cfg0.N) : Vec Ideal S128x1 .f32 := iblk0 V c 4 t

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the four grid points. -/
theorem idx_facts : ∀ t : Fin cfg0.N,
    win0_0.index t (0 : Fin 1) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val / 2 ∧ win0_6.index t (1 : Fin 3) = t.val % 2 ∧ win0_6.index t (2 : Fin 3) = 0
    ∧ win0_7.index t (0 : Fin 3) = t.val / 2 ∧ win0_7.index t (1 : Fin 3) = 0 ∧ win0_7.index t (2 : Fin 3) = t.val % 2 :=
  (by decide +kernel : ∀ t : Fin grid0.N, _)

theorem t_lt (t : Fin cfg0.N) : t.val < 4 := by
  have h1 := t.isLt
  have h2 : cfg0.N = 4 := N_0
  omega

/-! ## The input blocks read off the arrays -/

/-- Token r of point t's block is token 512·t + r of the array. -/
theorem bTok_apply (c : Dev nD) (t : Fin cfg0.N) (r : Fin 512) :
    bTok V c t (ix1 r) = aTok V c (ix1 (⟨t.val * 512 + r.val, by have := t_lt t; omega⟩ : Fin 2048)) := by
  show V c main_v6 (((cfg0.win 0).blk t).view.emb (ix1 r)) = V c main_v6 (ix1 (⟨t.val * 512 + r.val, by have := t_lt t; omega⟩ : Fin 2048))
  refine congrArg (V c main_v6) (funext fun a => Fin.ext ?_)
  match a with
  | ⟨0, _⟩ => show win0_0.index t (0 : Fin 1) * 512 + 1 * r.val = t.val * 512 + r.val; rw [(idx_facts t).1]; omega

/-- The table's block is the table. -/
theorem bTab_eq (c : Dev nD) (t : Fin cfg0.N) : bTab V c t = aTab V c := by
  funext y
  show V c main_arg1 (((cfg0.win 1).blk t).view.emb y) = V c main_arg1 y
  refine congrArg (V c main_arg1) (funext fun a => Fin.ext ?_)
  obtain ⟨-, e0, e1, -⟩ := idx_facts t
  match a with
  | ⟨0, _⟩ => show win0_1.index t (0 : Fin 2) * 5 + 1 * (y 0).val = (y 0).val; rw [e0]; omega
  | ⟨1, _⟩ => show win0_1.index t (1 : Fin 2) * 128 + 1 * (y 1).val = (y 1).val; rw [e1]; omega

theorem bA_eq (c : Dev nD) (t : Fin cfg0.N) : bA V c t = aA V c := by
  funext y
  show V c main_v10 (((cfg0.win 2).blk t).view.emb y) = V c main_v10 y
  refine congrArg (V c main_v10) (funext fun a => Fin.ext ?_)
  obtain ⟨-, -, -, e0, e1, -⟩ := idx_facts t
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem bB_eq (c : Dev nD) (t : Fin cfg0.N) : bB V c t = aB V c := by
  funext y
  show V c main_v12 (((cfg0.win 3).blk t).view.emb y) = V c main_v12 y
  refine congrArg (V c main_v12) (funext fun a => Fin.ext ?_)
  obtain ⟨-, -, -, -, -, e0, e1, -⟩ := idx_facts t
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem bCol_eq (c : Dev nD) (t : Fin cfg0.N) : bCol V c t = aCol V c := by
  funext y
  show V c main_v13 (((cfg0.win 4).blk t).view.emb y) = V c main_v13 y
  refine congrArg (V c main_v13) (funext fun a => Fin.ext ?_)
  obtain ⟨-, -, -, -, -, -, -, e0, e1, -⟩ := idx_facts t
  match a with
  | ⟨0, _⟩ => show win0_4.index t (0 : Fin 2) * 128 + 1 * (y 0).val = (y 0).val; rw [e0]; omega
  | ⟨1, _⟩ => show win0_4.index t (1 : Fin 2) * 1 + 1 * (y 1).val = (y 1).val; rw [e1]; omega

/-! ## The three outputs as functions of a token's number -/

/-- Feature d of the row token n selects (the indicator sum at its word). -/
def selAt (c : Dev nD) (n : Fin 2048) (d : Fin 128) : EReal := sel (aTok V c (ix1 n)) (aTab V c) d

/-- Token n's selected row through the first transposed half, output feature e. -/
def p1At (c : Dev nD) (n : Fin 2048) (e : Fin 128) : EReal := ∑ k : Fin 128, selAt V c n k * aA V c (ix2 k e)

/-- Token n's selected row through the second transposed half, output feature e, plus the bias column's entry. -/
def p2At (c : Dev nD) (n : Fin 2048) (e : Fin 128) : EReal :=
  (∑ k : Fin 128, selAt V c n k * aB V c (ix2 k e)) + aCol V c (ix2 e (0 : Fin 1))

/-- The selected-rows array (2048 × 128). -/
def selArr (c : Dev nD) : Vec Ideal S2048x128 .f32 := fun i =>
  selAt V c (⟨(i 0).val, (i 0).isLt⟩ : Fin 2048) (⟨(i 1).val, (i 1).isLt⟩ : Fin 128)

/-- The first projection (2 × 1024 × 128): token (b, l) is token 1024·b + l. -/
def projArr1 (c : Dev nD) : Vec Ideal S2x1024x128 .f32 := fun i =>
  p1At V c (⟨(i 0).val * 1024 + (i 1).val, by have h0 : (i 0).val < 2 := (i 0).isLt; have h1 : (i 1).val < 1024 := (i 1).isLt; omega⟩ : Fin 2048)
    (⟨(i 2).val, (i 2).isLt⟩ : Fin 128)

/-- The second projection, feature-major (2 × 128 × 1024). -/
def projArr2 (c : Dev nD) : Vec Ideal S2x128x1024 .f32 := fun i =>
  p2At V c (⟨(i 0).val * 1024 + (i 2).val, by have h0 : (i 0).val < 2 := (i 0).isLt; have h2 : (i 2).val < 1024 := (i 2).isLt; omega⟩ : Fin 2048)
    (⟨(i 1).val, (i 1).isLt⟩ : Fin 128)

/-! ## Output window 5: the selected rows -/

/-- What point t writes back through window 5 is block t of the selected-rows array. -/
theorem flushed5 (c : Dev nD) (t : Fin cfg0.N) :
    (dat0 V c).flushed 5 t = ((cfg0.win 5).blk t).view.read (Elt Ideal) (selArr V c) := by
  show (cfg0.win 5).cut (grid0.coords t) ((dat0 V c).after 5 t) = _
  rw [after0_5]
  unfold out0_5
  rw [View.canon_unit_zero hz2]
  simp only [View.ld_unit_zero (S := S512) hz1]
  funext j
  obtain ⟨r, d, rfl⟩ : ∃ (r : Fin 512) (d : Fin 128), j = ix2 r d := ⟨j 0, j 1, eq_ix2 j⟩
  show onehotVal (bTok V c t) (bTab V c t) (ix2 r d) = selArr V c (((cfg0.win 5).blk t).view.emb (ix2 r d))
  refine (onehotVal_apply (bTok V c t) (bTab V c t) r d).trans ?_
  rw [bTok_apply, bTab_eq]
  obtain ⟨-, -, -, -, -, -, -, -, -, e0, e1, -⟩ := idx_facts t
  have h0 : ((((cfg0.win 5).blk t).view.emb (ix2 r d)) 0).val = t.val * 512 + r.val := by
    show win0_5.index t (0 : Fin 2) * 512 + 1 * r.val = _; rw [e0]; omega
  have h1 : ((((cfg0.win 5).blk t).view.emb (ix2 r d)) 1).val = d.val := by
    show win0_5.index t (1 : Fin 2) * 128 + 1 * d.val = _; rw [e1]; omega
  exact congrArg₂ (selAt V c) (Fin.ext h0.symm) (Fin.ext h1.symm)

theorem mem_blk5 (t : Fin cfg0.N) (i : S2048x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v14_0).slice (win0_5.rect t)).set ↔ _
  rw [View.set_slice_whole, Rect.mem_set_unit]
  exact Iff.rfl

/-- Row n lies in the block of point n / 512. -/
theorem cover5 (i : S2048x128.Idx) : ∃ t : Fin cfg0.N, (cfg0.win 5).flush t = true ∧ i ∈ ((cfg0.win 5).blk t).view.set := by
  have hi0 : (i 0).val < 2048 := (i 0).isLt
  have hi1 : (i 1).val < 128 := (i 1).isLt
  let t : Fin cfg0.N := ⟨(i 0).val / 512, by rw [show cfg0.N = 4 from N_0]; omega⟩
  have tv : t.val = (i 0).val / 512 := rfl
  obtain ⟨-, -, -, -, -, -, -, -, -, e0, e1, -⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e0, tv]; omega
  | ⟨1, _⟩ => show win0_5.index t (1 : Fin 2) * 128 ≤ (i 1).val ∧ (i 1).val < win0_5.index t (1 : Fin 2) * 128 + 128; rw [e1]; omega

/-- THE SELECTED-ROWS ARRAY after the region. -/
theorem final5 (c : Dev nD) : (dat0 V c).arrAt 5 cfg0.N = selArr V c :=
  (dat0 V c).arrAt_eq_of_cover 5 (selArr V c) (fun t _ => flushed5 V c t) cover5

/-! ## Output window 6: the first projection -/

theorem flushed6 (c : Dev nD) (t : Fin cfg0.N) :
    (dat0 V c).flushed 6 t = ((cfg0.win 6).blk t).view.read (Elt Ideal) (projArr1 V c) := by
  show (cfg0.win 6).cut (grid0.coords t) ((dat0 V c).after 6 t) = _
  rw [after0_6]
  unfold out0_6
  rw [View.canon_unit_zero hz3]
  simp only [View.ld_unit_zero (S := S512) hz1, View.ld_unit_zero (S := S128x128) hz2]
  funext j
  obtain ⟨u, r, e, rfl⟩ : ∃ (u : Fin 1) (r : Fin 512) (e : Fin 128), j = ix3 u r e := ⟨j 0, j 1, j 2, eq_ix3 j⟩
  obtain rfl : u = 0 := Subsingleton.elim _ _
  show proj1Val (bTok V c t) (bTab V c t) (bA V c t) (ix3 (0 : Fin 1) r e) = projArr1 V c (((cfg0.win 6).blk t).view.emb (ix3 (0 : Fin 1) r e))
  refine (proj1Val_apply (bTok V c t) (bTab V c t) (bA V c t) r e).trans ?_
  rw [bTok_apply, bTab_eq, bA_eq]
  obtain ⟨-, -, -, -, -, -, -, -, -, -, -, e0, e1, e2, -⟩ := idx_facts t
  have ht := t_lt t
  have h0 : ((((cfg0.win 6).blk t).view.emb (ix3 (0 : Fin 1) r e)) 0).val = t.val / 2 := by
    show win0_6.index t (0 : Fin 3) * 1 + 1 * 0 = _; rw [e0]; omega
  have h1 : ((((cfg0.win 6).blk t).view.emb (ix3 (0 : Fin 1) r e)) 1).val = t.val % 2 * 512 + r.val := by
    show win0_6.index t (1 : Fin 3) * 512 + 1 * r.val = _; rw [e1]; omega
  have h2 : ((((cfg0.win 6).blk t).view.emb (ix3 (0 : Fin 1) r e)) 2).val = e.val := by
    show win0_6.index t (2 : Fin 3) * 128 + 1 * e.val = _; rw [e2]; omega
  exact congrArg₂ (p1At V c) (Fin.ext (show t.val * 512 + r.val
      = ((((cfg0.win 6).blk t).view.emb (ix3 (0 : Fin 1) r e)) 0).val * 1024 + ((((cfg0.win 6).blk t).view.emb (ix3 (0 : Fin 1) r e)) 1).val by
        rw [h0, h1]; omega)) (Fin.ext h2.symm)

theorem mem_blk6 (t : Fin cfg0.N) (i : S2x1024x128.Idx) :
    i ∈ ((cfg0.win 6).blk t).view.set ↔ ∀ a : Fin 3, win0_6.index t a * S1x512x128.size a ≤ (i a).val ∧ (i a).val < win0_6.index t a * S1x512x128.size a + S1x512x128.size a := by
  show i ∈ ((View.whole main_v14_1).slice (win0_6.rect t)).set ↔ _
  rw [View.set_slice_whole, Rect.mem_set_unit]
  exact Iff.rfl

/-- Entry (b, l, ·) lies in the block of point 2·b + l / 512. -/
theorem cover6 (i : S2x1024x128.Idx) : ∃ t : Fin cfg0.N, (cfg0.win 6).flush t = true ∧ i ∈ ((cfg0.win 6).blk t).view.set := by
  have hi0 : (i 0).val < 2 := (i 0).isLt
  have hi1 : (i 1).val < 1024 := (i 1).isLt
  have hi2 : (i 2).val < 128 := (i 2).isLt
  let t : Fin cfg0.N := ⟨(i 0).val * 2 + (i 1).val / 512, by rw [show cfg0.N = 4 from N_0]; omega⟩
  have tv : t.val = (i 0).val * 2 + (i 1).val / 512 := rfl
  obtain ⟨-, -, -, -, -, -, -, -, -, -, -, e0, e1, e2, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; rw [e0, tv]; omega
  | ⟨1, _⟩ => show win0_6.index t (1 : Fin 3) * 512 ≤ (i 1).val ∧ (i 1).val < win0_6.index t (1 : Fin 3) * 512 + 512; rw [e1, tv]; omega
  | ⟨2, _⟩ => show win0_6.index t (2 : Fin 3) * 128 ≤ (i 2).val ∧ (i 2).val < win0_6.index t (2 : Fin 3) * 128 + 128; rw [e2]; omega

/-- THE FIRST PROJECTION after the region. -/
theorem final6 (c : Dev nD) : (dat0 V c).arrAt 6 cfg0.N = projArr1 V c :=
  (dat0 V c).arrAt_eq_of_cover 6 (projArr1 V c) (fun t _ => flushed6 V c t) cover6

/-! ## Output window 7: the second projection, feature-major -/

theorem flushed7 (c : Dev nD) (t : Fin cfg0.N) :
    (dat0 V c).flushed 7 t = ((cfg0.win 7).blk t).view.read (Elt Ideal) (projArr2 V c) := by
  show (cfg0.win 7).cut (grid0.coords t) ((dat0 V c).after 7 t) = _
  rw [after0_7]
  unfold out0_7
  rw [View.canon_unit_zero hz3]
  simp only [View.ld_unit_zero (S := S512) hz1, View.ld_unit_zero (S := S128x128) hz2, View.ld_unit_zero (S := S128x1) hz2]
  funext j
  obtain ⟨u, e, r, rfl⟩ : ∃ (u : Fin 1) (e : Fin 128) (r : Fin 512), j = ix3 u e r := ⟨j 0, j 1, j 2, eq_ix3 j⟩
  obtain rfl : u = 0 := Subsingleton.elim _ _
  show proj2tVal (bTok V c t) (bTab V c t) (bB V c t) (bCol V c t) (ix3 (0 : Fin 1) e r) = projArr2 V c (((cfg0.win 7).blk t).view.emb (ix3 (0 : Fin 1) e r))
  refine (proj2tVal_apply (bTok V c t) (bTab V c t) (bB V c t) (bCol V c t) e r).trans ?_
  rw [bTok_apply, bTab_eq, bB_eq, bCol_eq]
  obtain ⟨-, -, -, -, -, -, -, -, -, -, -, -, -, -, e0, e1, e2⟩ := idx_facts t
  have ht := t_lt t
  have h0 : ((((cfg0.win 7).blk t).view.emb (ix3 (0 : Fin 1) e r)) 0).val = t.val / 2 := by
    show win0_7.index t (0 : Fin 3) * 1 + 1 * 0 = _; rw [e0]; omega
  have h1 : ((((cfg0.win 7).blk t).view.emb (ix3 (0 : Fin 1) e r)) 1).val = e.val := by
    show win0_7.index t (1 : Fin 3) * 128 + 1 * e.val = _; rw [e1]; omega
  have h2 : ((((cfg0.win 7).blk t).view.emb (ix3 (0 : Fin 1) e r)) 2).val = t.val % 2 * 512 + r.val := by
    show win0_7.index t (2 : Fin 3) * 512 + 1 * r.val = _; rw [e2]; omega
  exact congrArg₂ (p2At V c) (Fin.ext (show t.val * 512 + r.val
      = ((((cfg0.win 7).blk t).view.emb (ix3 (0 : Fin 1) e r)) 0).val * 1024 + ((((cfg0.win 7).blk t).view.emb (ix3 (0 : Fin 1) e r)) 2).val by
        rw [h0, h2]; omega)) (Fin.ext h1.symm)

theorem mem_blk7 (t : Fin cfg0.N) (i : S2x128x1024.Idx) :
    i ∈ ((cfg0.win 7).blk t).view.set ↔ ∀ a : Fin 3, win0_7.index t a * S1x128x512.size a ≤ (i a).val ∧ (i a).val < win0_7.index t a * S1x128x512.size a + S1x128x512.size a := by
  show i ∈ ((View.whole main_v14_2).slice (win0_7.rect t)).set ↔ _
  rw [View.set_slice_whole, Rect.mem_set_unit]
  exact Iff.rfl

/-- Entry (b, ·, l) lies in the block of point 2·b + l / 512. -/
theorem cover7 (i : S2x128x1024.Idx) : ∃ t : Fin cfg0.N, (cfg0.win 7).flush t = true ∧ i ∈ ((cfg0.win 7).blk t).view.set := by
  have hi0 : (i 0).val < 2 := (i 0).isLt
  have hi1 : (i 1).val < 128 := (i 1).isLt
  have hi2 : (i 2).val < 1024 := (i 2).isLt
  let t : Fin cfg0.N := ⟨(i 0).val * 2 + (i 2).val / 512, by rw [show cfg0.N = 4 from N_0]; omega⟩
  have tv : t.val = (i 0).val * 2 + (i 2).val / 512 := rfl
  obtain ⟨-, -, -, -, -, -, -, -, -, -, -, -, -, -, e0, e1, e2⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; rw [e0, tv]; omega
  | ⟨1, _⟩ => show win0_7.index t (1 : Fin 3) * 128 ≤ (i 1).val ∧ (i 1).val < win0_7.index t (1 : Fin 3) * 128 + 128; rw [e1]; omega
  | ⟨2, _⟩ => show win0_7.index t (2 : Fin 3) * 512 ≤ (i 2).val ∧ (i 2).val < win0_7.index t (2 : Fin 3) * 512 + 512; rw [e2, tv]; omega

/-- THE SECOND PROJECTION after the region. -/
theorem final7 (c : Dev nD) : (dat0 V c).arrAt 7 cfg0.N = projArr2 V c :=
  (dat0 V c).arrAt_eq_of_cover 7 (projArr2 V c) (fun t _ => flushed7 V c t) cover7

end Cert.KernelIdeal.Region0

end
-- ==== Proof.Region1.lean ====
/-
  Region 1: the pairwise sum.

  The second pallas_call runs over 2 × 32 grid points; point (b, i) takes rows 32·i … 32·i + 31 of batch b of the first
  projection P (2 × 1024 × 128) and all of batch b of the second projection Q stored feature-major (2 × 128 × 1024), and
  writes block (b, ·, i, ·) of the result (2 × 128 × 1024 × 1024).  The body transposes its 32 × 128 tile of P, spreads it
  along the last axis, spreads Q's tile along the 32 rows, and adds: entry (0, e, r, j) of the stored block is
  P-tile(0, r, e) + Q-tile(0, e, j).  The blocks tile the result, so after the last point the result's entry
  (b, e, i, j) is P(b, i, e) + Q(b, e, j).
-/
import proofs.«416537_j11304353923370_3_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's store at one entry -/

/-- Entry (0, e, r, j) of the stored block: the P tile at (0, r, e) plus the Q tile at (0, e, j). -/
theorem pair_apply (v0 : Vec Ideal S1x32x128 .f32) (v3 : Vec Ideal S1x128x1024 .f32) (e : Fin 128) (r : Fin 32) (j : Fin 1024) :
    k1_pay1 v0 v3 (ix4 (0 : Fin 1) e r j) = v0 (ix3 (0 : Fin 1) r e) + v3 (ix3 (0 : Fin 1) e j) := by
  unfold k1_pay1
  dsimp only
  rw [shapeCast_apply _ shapeCasts_S128x32x1024_S1x128x32x1024 (ix4 (0 : Fin 1) e r j) (ix3 e r j) (by
    rw [Shape.rowMajor_val_three, Shape.rowMajor_val_four]
    show (e.val * 32 + r.val) * 1024 + j.val = (((0 : Nat) * 128 + e.val) * 32 + r.val) * 1024 + j.val
    omega)]
  rw [addf_apply]
  rw [broadcastTo_apply _ broadcasts_S128x32x1_S128x32x1024 (ix3 e r j) (ix3 e r (0 : Fin 1)) (fun a => by
    match a with
    | ⟨0, _⟩ => show e.val = if (128 : Nat) = 1 then 0 else e.val; rw [if_neg (by decide)]
    | ⟨1, _⟩ => show r.val = if (32 : Nat) = 1 then 0 else r.val; rw [if_neg (by decide)]
    | ⟨2, _⟩ => show (0 : Nat) = if (1 : Nat) = 1 then 0 else j.val; rw [if_pos rfl])]
  rw [shapeCast_apply _ shapeCasts_S128x32_S128x32x1 (ix3 e r (0 : Fin 1)) (ix2 e r) (by
    rw [Shape.rowMajor_val_two, Shape.rowMajor_val_three]
    show e.val * 32 + r.val = (e.val * 32 + r.val) * 1 + 0
    omega)]
  rw [transpose_apply [1, 0] _ transposes_S32x128_p1_0_S128x32 (ix2 e r) (ix2 r e) (fun b => by
    match b with
    | ⟨0, _⟩ => rfl
    | ⟨1, _⟩ => rfl)]
  rw [shapeCast_apply _ shapeCasts_S1x32x128_S32x128 (ix2 r e) (ix3 (0 : Fin 1) r e) (by
    rw [Shape.rowMajor_val_three, Shape.rowMajor_val_two]
    show ((0 : Nat) * 32 + r.val) * 128 + e.val = r.val * 128 + e.val
    omega)]
  rw [broadcastTo_apply _ broadcasts_S128x1x1024_S128x32x1024 (ix3 e r j) (ix3 e (0 : Fin 1) j) (fun a => by
    match a with
    | ⟨0, _⟩ => show e.val = if (128 : Nat) = 1 then 0 else e.val; rw [if_neg (by decide)]
    | ⟨1, _⟩ => show (0 : Nat) = if (1 : Nat) = 1 then 0 else r.val; rw [if_pos rfl]
    | ⟨2, _⟩ => show j.val = if (1024 : Nat) = 1 then 0 else j.val; rw [if_neg (by decide)])]
  rw [shapeCast_apply _ shapeCasts_S128x1024_S128x1x1024 (ix3 e (0 : Fin 1) j) (ix2 e j) (by
    rw [Shape.rowMajor_val_two, Shape.rowMajor_val_three]
    show e.val * 1024 + j.val = (e.val * 1 + 0) * 1024 + j.val
    omega)]
  rw [shapeCast_apply _ shapeCasts_S1x128x1024_S128x1024 (ix2 e j) (ix3 (0 : Fin 1) e j) (by
    rw [Shape.rowMajor_val_three, Shape.rowMajor_val_two]
    show ((0 : Nat) * 128 + e.val) * 1024 + j.val = e.val * 1024 + j.val
    omega)]

/-! ## The region's arrays and blocks -/

variable (V : (c : Dev nD) → (b : Ref sig .tc) → Buf (Elt Ideal) ((c : Thread nD τ).loc b))

abbrev aP (c : Dev nD) : Vec Ideal S2x1024x128 .f32 := V c main_v14_1
abbrev aQ (c : Dev nD) : Vec Ideal S2x128x1024 .f32 := V c main_v14_2
abbrev bP (c : Dev nD) (t : Fin cfg1.N) : Vec Ideal S1x32x128 .f32 := iblk1 V c 0 t
abbrev bQ (c : Dev nD) (t : Fin cfg1.N) : Vec Ideal S1x128x1024 .f32 := iblk1 V c 1 t

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 64 grid points. -/
theorem idx_facts : ∀ t : Fin cfg1.N,
    win1_0.index t (0 : Fin 3) = t.val / 32 ∧ win1_0.index t (1 : Fin 3) = t.val % 32 ∧ win1_0.index t (2 : Fin 3) = 0
    ∧ win1_1.index t (0 : Fin 3) = t.val / 32 ∧ win1_1.index t (1 : Fin 3) = 0 ∧ win1_1.index t (2 : Fin 3) = 0
    ∧ win1_2.index t (0 : Fin 4) = t.val / 32 ∧ win1_2.index t (1 : Fin 4) = 0 ∧ win1_2.index t (2 : Fin 4) = t.val % 32
      ∧ win1_2.index t (3 : Fin 4) = 0 :=
  (by decide +kernel : ∀ t : Fin grid1.N, _)

theorem t_lt (t : Fin cfg1.N) : t.val < 64 := by
  have h1 := t.isLt
  have h2 : cfg1.N = 64 := N_1
  omega

/-- The P tile of point t: rows 32·(t % 32) … of batch t / 32. -/
theorem bP_apply (c : Dev nD) (t : Fin cfg1.N) (r : Fin 32) (e : Fin 128) :
    bP V c t (ix3 (0 : Fin 1) r e)
      = aP V c (ix3 (⟨t.val / 32, by have := t_lt t; omega⟩ : Fin 2) (⟨t.val % 32 * 32 + r.val, by have := t_lt t; omega⟩ : Fin 1024) e) := by
  show V c main_v14_1 (((cfg1.win 0).blk t).view.emb (ix3 (0 : Fin 1) r e)) = V c main_v14_1 _
  refine congrArg (V c main_v14_1) (funext fun a => Fin.ext ?_)
  obtain ⟨e0, e1, e2, -⟩ := idx_facts t
  match a with
  | ⟨0, _⟩ => show win1_0.index t (0 : Fin 3) * 1 + 1 * 0 = t.val / 32; rw [e0]; omega
  | ⟨1, _⟩ => show win1_0.index t (1 : Fin 3) * 32 + 1 * r.val = t.val % 32 * 32 + r.val; rw [e1]; omega
  | ⟨2, _⟩ => show win1_0.index t (2 : Fin 3) * 128 + 1 * e.val = e.val; rw [e2]; omega

/-- The Q tile of point t: all of batch t / 32. -/
theorem bQ_apply (c : Dev nD) (t : Fin cfg1.N) (e : Fin 128) (j : Fin 1024) :
    bQ V c t (ix3 (0 : Fin 1) e j) = aQ V c (ix3 (⟨t.val / 32, by have := t_lt t; omega⟩ : Fin 2) e j) := by
  show V c main_v14_2 (((cfg1.win 1).blk t).view.emb (ix3 (0 : Fin 1) e j)) = V c main_v14_2 _
  refine congrArg (V c main_v14_2) (funext fun a => Fin.ext ?_)
  obtain ⟨-, -, -, e0, e1, e2, -⟩ := idx_facts t
  match a with
  | ⟨0, _⟩ => show win1_1.index t (0 : Fin 3) * 1 + 1 * 0 = t.val / 32; rw [e0]; omega
  | ⟨1, _⟩ => show win1_1.index t (1 : Fin 3) * 128 + 1 * e.val = e.val; rw [e1]; omega
  | ⟨2, _⟩ => show win1_1.index t (2 : Fin 3) * 1024 + 1 * j.val = j.val; rw [e2]; omega

/-! ## The result as one array -/

/-- The pairwise sum of two arrays: entry (b, e, i, j) is P(b, i, e) + Q(b, e, j). -/
def pairOf (P : Vec Ideal S2x1024x128 .f32) (Q : Vec Ideal S2x128x1024 .f32) : Vec Ideal S2x128x1024x1024 .f32 := fun i =>
  P (ix3 (⟨(i 0).val, (i 0).isLt⟩ : Fin 2) (⟨(i 2).val, (i 2).isLt⟩ : Fin 1024) (⟨(i 1).val, (i 1).isLt⟩ : Fin 128))
    + Q (ix3 (⟨(i 0).val, (i 0).isLt⟩ : Fin 2) (⟨(i 1).val, (i 1).isLt⟩ : Fin 128) (⟨(i 3).val, (i 3).isLt⟩ : Fin 1024))

/-- What point t writes back is block t of the pairwise sum of the region's two input arrays. -/
theorem flushed2 (c : Dev nD) (t : Fin cfg1.N) :
    (dat1 V c).flushed 2 t = ((cfg1.win 2).blk t).view.read (Elt Ideal) (pairOf (aP V c) (aQ V c)) := by
  show (cfg1.win 2).cut (grid1.coords t) ((dat1 V c).after 2 t) = _
  rw [after1_2]
  unfold out1_2
  rw [View.canon_unit_zero hz4]
  simp only [View.ld_unit_zero (S := S1x32x128) hz3, View.ld_unit_zero (S := S1x128x1024) hz3]
  funext y
  obtain ⟨u, e, r, j, rfl⟩ : ∃ (u : Fin 1) (e : Fin 128) (r : Fin 32) (j : Fin 1024), y = ix4 u e r j := ⟨y 0, y 1, y 2, y 3, eq_ix4 y⟩
  obtain rfl : u = 0 := Subsingleton.elim _ _
  show k1_pay1 (bP V c t) (bQ V c t) (ix4 (0 : Fin 1) e r j) = pairOf (aP V c) (aQ V c) (((cfg1.win 2).blk t).view.emb (ix4 (0 : Fin 1) e r j))
  refine (pair_apply (bP V c t) (bQ V c t) e r j).trans ?_
  rw [bP_apply, bQ_apply]
  unfold pairOf
  obtain ⟨-, -, -, -, -, -, e0, e1, e2, e3⟩ := idx_facts t
  have h0 : ((((cfg1.win 2).blk t).view.emb (ix4 (0 : Fin 1) e r j)) 0).val = t.val / 32 := by
    show win1_2.index t (0 : Fin 4) * 1 + 1 * 0 = _; rw [e0]; omega
  have h1 : ((((cfg1.win 2).blk t).view.emb (ix4 (0 : Fin 1) e r j)) 1).val = e.val := by
    show win1_2.index t (1 : Fin 4) * 128 + 1 * e.val = _; rw [e1]; omega
  have h2 : ((((cfg1.win 2).blk t).view.emb (ix4 (0 : Fin 1) e r j)) 2).val = t.val % 32 * 32 + r.val := by
    show win1_2.index t (2 : Fin 4) * 32 + 1 * r.val = _; rw [e2]; omega
  have h3 : ((((cfg1.win 2).blk t).view.emb (ix4 (0 : Fin 1) e r j)) 3).val = j.val := by
    show win1_2.index t (3 : Fin 4) * 1024 + 1 * j.val = _; rw [e3]; omega
  congr 1
  · refine congrArg (aP V c) (funext fun a => Fin.ext ?_)
    match a with
    | ⟨0, _⟩ => exact h0.symm
    | ⟨1, _⟩ => exact h2.symm
    | ⟨2, _⟩ => exact h1.symm
  · refine congrArg (aQ V c) (funext fun a => Fin.ext ?_)
    match a with
    | ⟨0, _⟩ => exact h0.symm
    | ⟨1, _⟩ => exact h1.symm
    | ⟨2, _⟩ => exact h3.symm

/-- An index of the result is in point t's block iff each coordinate is in the block's range on its axis. -/
theorem mem_blk2 (t : Fin cfg1.N) (i : S2x128x1024x1024.Idx) :
    i ∈ ((cfg1.win 2).blk t).view.set ↔ ∀ a : Fin 4, win1_2.index t a * S1x128x32x1024.size a ≤ (i a).val ∧ (i a).val < win1_2.index t a * S1x128x32x1024.size a + S1x128x32x1024.size a := by
  show i ∈ ((View.whole main_v16).slice (win1_2.rect t)).set ↔ _
  rw [View.set_slice_whole, Rect.mem_set_unit]
  exact Iff.rfl

/-- Every index of the result lies in some point's block: batch b, row block i / 32. -/
theorem cover2 (i : S2x128x1024x1024.Idx) : ∃ t : Fin cfg1.N, (cfg1.win 2).flush t = true ∧ i ∈ ((cfg1.win 2).blk t).view.set := by
  have hi0 : (i 0).val < 2 := (i 0).isLt
  have hi1 : (i 1).val < 128 := (i 1).isLt
  have hi2 : (i 2).val < 1024 := (i 2).isLt
  have hi3 : (i 3).val < 1024 := (i 3).isLt
  let t : Fin cfg1.N := ⟨(i 0).val * 32 + (i 2).val / 32, by rw [show cfg1.N = 64 from N_1]; omega⟩
  have tv : t.val = (i 0).val * 32 + (i 2).val / 32 := rfl
  obtain ⟨-, -, -, -, -, -, e0, e1, e2, e3⟩ := idx_facts t
  refine ⟨t, flush1_2 t, ?_⟩
  rw [mem_blk2]
  intro a
  match a with
  | ⟨0, _⟩ => show win1_2.index t (0 : Fin 4) * 1 ≤ (i 0).val ∧ (i 0).val < win1_2.index t (0 : Fin 4) * 1 + 1; rw [e0, tv]; omega
  | ⟨1, _⟩ => show win1_2.index t (1 : Fin 4) * 128 ≤ (i 1).val ∧ (i 1).val < win1_2.index t (1 : Fin 4) * 128 + 128; rw [e1]; omega
  | ⟨2, _⟩ => show win1_2.index t (2 : Fin 4) * 32 ≤ (i 2).val ∧ (i 2).val < win1_2.index t (2 : Fin 4) * 32 + 32; rw [e2, tv]; omega
  | ⟨3, _⟩ => show win1_2.index t (3 : Fin 4) * 1024 ≤ (i 3).val ∧ (i 3).val < win1_2.index t (3 : Fin 4) * 1024 + 1024; rw [e3]; omega

/-- THE RESULT ARRAY after the region: the pairwise sum of the arrays the region found. -/
theorem final2 (c : Dev nD) : (dat1 V c).arrAt 2 cfg1.N = pairOf (aP V c) (aQ V c) :=
  (dat1 V c).arrAt_eq_of_cover 2 (pairOf (aP V c) (aQ V c)) (fun t _ => flushed2 V c t) (cover2)

end Cert.KernelIdeal.Region1

end
-- ==== Proof.HostIn.lean ====
/-
  What the host operations before the first region leave in its five input arrays, entry by entry, at the ideal values.

  The token indices are flattened to 2048, wrapped (a negative index counts from the end of the table) and clamped
  into 0..4: entry r is the word of the table row that token (r / 1024, r % 1024) names.  The table itself is passed
  through.  The weight matrix is cut into its left and right 128-column halves, each transposed (and narrowed to
  bf16, which changes nothing at the ideal values): entry (k, e) of the first is W(e, k), of the second W(e, 128 + k).
  The bias is made a column: entry (e, 0) is bias(e).
-/
import proofs.«416537_j11304353923370_3_alg».proof.Proof.Gen.KernelIdeal.Frame
import proofs.«416537_j11304353923370_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostIn

open Cert.KernelIdeal Cert.KernelIdeal.Gen Cert.EmbedPair
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The launch contents of the four arguments, by their literal types. -/
abbrev xTok (c : Dev nD) : STok.Idx → BitVec 32 := m ((c : Thread nD τ).loc main_arg0)
abbrev xTab (c : Dev nD) : STab.Idx → EReal := m ((c : Thread nD τ).loc main_arg1)
abbrev xW (c : Dev nD) : SW.Idx → EReal := m ((c : Thread nD τ).loc main_arg2)
abbrev xBias (c : Dev nD) : SB.Idx → EReal := m ((c : Thread nD τ).loc main_arg3)

/-- The token array the first region finds, as a whole: flattened, wrapped, clamped. -/
theorem tok_eq (c : Dev nD) :
    (V5 m ρ c main_v6 : S2048.Idx → BitVec 32)
      = fun i => IntOp.minsi 4#32 (IntOp.maxsi 0#32 (wrap (shapeCast S2048 (xTok m c) shapeCasts_S2x1024_S2048 i))) := by
  show W5 m ρ c (Proc.devRef .tc main_v6) = _
  dsimp only [W5, W4, W3, W2, W1, W0, hostOps0, hostOps0_1, hostOps0_2, hostOps0_3, hostOps0_4]
  after_results <;> rfl

/-- Entry r of it is the word of the row token (r / 1024, r % 1024) names. -/
theorem tok_apply (c : Dev nD) (r : Fin 2048) :
    (V5 m ρ c main_v6 : S2048.Idx → BitVec 32) (ix1 r)
      = BitVec.ofNat 32 (tokRow (xTok m c) ⟨r.val / 1024, by omega⟩ ⟨r.val % 1024, by omega⟩).val := by
  rw [tok_eq]
  show IntOp.minsi 4#32 (IntOp.maxsi 0#32 (wrap (shapeCast S2048 (xTok m c) shapeCasts_S2x1024_S2048 (ix1 r)))) = _
  rw [clip_eq_row]
  unfold tokRow
  rw [shapeCast_apply (xTok m c) shapeCasts_S2x1024_S2048 (ix1 r) (ix2 (⟨r.val / 1024, by omega⟩ : Fin 2) (⟨r.val % 1024, by omega⟩ : Fin 1024)) (by
    rw [Shape.rowMajor_val_one, Shape.rowMajor_val_two]
    show r.val / 1024 * 1024 + r.val % 1024 = r.val
    omega)]

/-- The table is passed through. -/
theorem tab_eq (c : Dev nD) : (V5 m ρ c main_arg1 : S5x128.Idx → EReal) = xTab m c := by
  show W5 m ρ c (Proc.devRef .tc main_arg1) = _
  dsimp only [W5, W4, W3, W2, W1, W0, hostOps0, hostOps0_1, hostOps0_2, hostOps0_3, hostOps0_4]
  after_results <;> rfl

/-- The left half of the weights, transposed: entry (k, e) is W(e, k). -/
theorem w1t_apply (c : Dev nD) (k e : Fin 128) :
    (V5 m ρ c main_v10 : S128x128.Idx → EReal) (ix2 k e) = xW m c (ix2 e (⟨k.val, by omega⟩ : Fin 256)) := by
  have h : (V5 m ρ c main_v10 : S128x128.Idx → EReal)
      = truncf (F := Ideal) .bf16 (transpose S128x128 [1, 0] (extractStridedSlice S128x128 ![0, 0] (xW m c) slices_S128x256_S128x128_0_0)
          transposes_S128x128_S128x128_1_0) bitsLt_bf16_f32 := by
    show W5 m ρ c (Proc.devRef .tc main_v10) = _
    dsimp only [W5, W4, W3, W2, W1, W0, hostOps0, hostOps0_1, hostOps0_2, hostOps0_3, hostOps0_4]
    after_results <;> rfl
  rw [h, truncf_apply]
  rw [transpose_apply [1, 0] _ transposes_S128x128_S128x128_1_0 (ix2 k e) (ix2 e k) (fun b => by
    match b with
    | ⟨0, _⟩ => rfl
    | ⟨1, _⟩ => rfl)]
  exact extractStridedSlice_apply ![0, 0] (xW m c) slices_S128x256_S128x128_0_0 (ix2 e k) (ix2 e (⟨k.val, by omega⟩ : Fin 256)) (fun a => by
    match a with
    | ⟨0, _⟩ => show e.val = 0 + e.val; omega
    | ⟨1, _⟩ => show k.val = 0 + k.val; omega)

/-- The right half of the weights, transposed: entry (k, e) is W(e, 128 + k). -/
theorem w2t_apply (c : Dev nD) (k e : Fin 128) :
    (V5 m ρ c main_v12 : S128x128.Idx → EReal) (ix2 k e) = xW m c (ix2 e (⟨128 + k.val, by omega⟩ : Fin 256)) := by
  have h : (V5 m ρ c main_v12 : S128x128.Idx → EReal)
      = truncf (F := Ideal) .bf16 (transpose S128x128 [1, 0] (extractStridedSlice S128x128 ![0, 128] (xW m c) slices_S128x256_S128x128_0_128)
          transposes_S128x128_S128x128_1_0) bitsLt_bf16_f32 := by
    show W5 m ρ c (Proc.devRef .tc main_v12) = _
    dsimp only [W5, W4, W3, W2, W1, W0, hostOps0, hostOps0_1, hostOps0_2, hostOps0_3, hostOps0_4]
    after_results <;> rfl
  rw [h, truncf_apply]
  rw [transpose_apply [1, 0] _ transposes_S128x128_S128x128_1_0 (ix2 k e) (ix2 e k) (fun b => by
    match b with
    | ⟨0, _⟩ => rfl
    | ⟨1, _⟩ => rfl)]
  exact extractStridedSlice_apply ![0, 128] (xW m c) slices_S128x256_S128x128_0_128 (ix2 e k) (ix2 e (⟨128 + k.val, by omega⟩ : Fin 256)) (fun a => by
    match a with
    | ⟨0, _⟩ => show e.val = 0 + e.val; omega
    | ⟨1, _⟩ => show 128 + k.val = 128 + k.val; omega)

/-- The bias as a column: entry (e, 0) is bias(e). -/
theorem bias_apply (c : Dev nD) (e : Fin 128) :
    (V5 m ρ c main_v13 : S128x1.Idx → EReal) (ix2 e (0 : Fin 1)) = xBias m c (ix1 e) := by
  have h : (V5 m ρ c main_v13 : S128x1.Idx → EReal) = shapeCast S128x1 (xBias m c) shapeCasts_S128_S128x1 := by
    show W5 m ρ c (Proc.devRef .tc main_v13) = _
    dsimp only [W5, W4, W3, W2, W1, W0, hostOps0, hostOps0_1, hostOps0_2, hostOps0_3, hostOps0_4]
    after_results <;> rfl
  rw [h]
  exact shapeCast_apply (xBias m c) shapeCasts_S128_S128x1 (ix2 e (0 : Fin 1)) (ix1 e) (by
    rw [Shape.rowMajor_val_one, Shape.rowMajor_val_two]; show e.val = e.val * 1 + 0; omega)

end Cert.KernelIdeal.HostIn

end
-- ==== Proof.KernelValue.lean ====
/-
  The kernel program's two result buffers, at the ideal values, as the specification's two arrays of the arguments.

  Region 0's arrays are functions of a token's number n; with the host's inputs read (token 1024·b + l of the flattened
  array is token (b, l); the transposed halves at (k, e) are W(e, k) and W(e, 128 + k); the bias column at (e, 0) is
  bias(e)) they become the specification's entries: the selected row is the table row the token names, and the two
  projections are the specification's (the second with the bias added).  The first result is the selected-rows array
  re-shaped to (b, l, d); the second is region 1's pairwise sum of the two projections.
-/
import proofs.«416537_j11304353923370_3_alg».proof.Proof.Region0
import proofs.«416537_j11304353923370_3_alg».proof.Proof.Region1
import proofs.«416537_j11304353923370_3_alg».proof.Proof.HostIn

set_option maxRecDepth 16384

noncomputable section

open scoped BigOperators

namespace Cert.KernelIdeal.KernelValue

open Cert.KernelIdeal Cert.KernelIdeal.Gen Cert.EmbedPair Cert.KernelIdeal.Pay Cert.KernelIdeal.HostIn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The number of token (b, l) in the flattened array. -/
abbrev tokNo (b : Fin 2) (l : Fin 1024) : Fin 2048 := ⟨b.val * 1024 + l.val, by omega⟩

/-! ## Region 0's arrays in terms of the arguments -/

/-- The word region 0 finds for token (b, l) is the word of the table row the token names. -/
theorem tok_word (c : Dev nD) (b : Fin 2) (l : Fin 1024) :
    (V5 m ρ c main_v6 : S2048.Idx → BitVec 32) (ix1 (tokNo b l)) = BitVec.ofNat 32 (tokRow (xTok m c) b l).val := by
  rw [tok_eq]
  show IntOp.minsi 4#32 (IntOp.maxsi 0#32 (wrap (shapeCast S2048 (xTok m c) shapeCasts_S2x1024_S2048 (ix1 (tokNo b l))))) = _
  rw [clip_eq_row]
  unfold tokRow
  rw [shapeCast_apply (xTok m c) shapeCasts_S2x1024_S2048 (ix1 (tokNo b l)) (ix2 b l) (by
    rw [Shape.rowMajor_val_one, Shape.rowMajor_val_two]
    show b.val * 1024 + l.val = b.val * 1024 + l.val
    rfl)]

theorem sel_entry (c : Dev nD) (b : Fin 2) (l : Fin 1024) (d : Fin 128) :
    Region0.selAt (V5 m ρ) c (tokNo b l) d = embAt (xTok m c) (xTab m c) b l d := by
  show sel ((V5 m ρ c main_v6 : S2048.Idx → BitVec 32) (ix1 (tokNo b l))) (V5 m ρ c main_arg1 : S5x128.Idx → EReal) d = _
  rw [tok_word, tab_eq, sel_row]
  rfl

theorem p1_entry (c : Dev nD) (b : Fin 2) (l : Fin 1024) (e : Fin 128) :
    Region0.p1At (V5 m ρ) c (tokNo b l) e = proj1At (xTok m c) (xTab m c) (xW m c) b l e := by
  unfold Region0.p1At proj1At
  refine Finset.sum_congr rfl fun k _ => ?_
  rw [sel_entry]
  exact congrArg (embAt (xTok m c) (xTab m c) b l k * ·) (w1t_apply m ρ c k e)

theorem p2_entry (c : Dev nD) (b : Fin 2) (l : Fin 1024) (e : Fin 128) :
    Region0.p2At (V5 m ρ) c (tokNo b l) e = proj2At (xTok m c) (xTab m c) (xW m c) b l e + xBias m c (ix1 e) := by
  unfold Region0.p2At proj2At
  refine congrArg₂ (· + ·) (Finset.sum_congr rfl fun k _ => ?_) (bias_apply m ρ c e)
  rw [sel_entry]
  exact congrArg (embAt (xTok m c) (xTab m c) b l k * ·) (w2t_apply m ρ c k e)

/-! ## Between the regions -/

/-- Region 1 finds the first projection as region 0 left it. -/
theorem mid_P (c : Dev nD) : (V7 m ρ c main_v14_1 : Vec Ideal S2x1024x128 .f32) = Region0.projArr1 (V5 m ρ) c := by
  have h : W7 m ρ c (Proc.devRef .tc main_v14_1) = W6 m ρ c (Proc.devRef .tc main_v14_1) := by
    dsimp only [W7, hostOps1]
    after_results <;> rfl
  exact h.trans ((W6_arr m ρ c 6).trans (Region0.final6 (V5 m ρ) c))

/-- Region 1 finds the second projection as region 0 left it. -/
theorem mid_Q (c : Dev nD) : (V7 m ρ c main_v14_2 : Vec Ideal S2x128x1024 .f32) = Region0.projArr2 (V5 m ρ) c := by
  have h : W7 m ρ c (Proc.devRef .tc main_v14_2) = W6 m ρ c (Proc.devRef .tc main_v14_2) := by
    dsimp only [W7, hostOps1]
    after_results <;> rfl
  exact h.trans ((W6_arr m ρ c 7).trans (Region0.final7 (V5 m ρ) c))

/-- The first result buffer is the selected-rows array re-shaped to (b, l, d). -/
theorem mid_emb (c : Dev nD) :
    (W7 m ρ c (Proc.devRef .tc main_v15) : Vec Ideal S2x1024x128 .f32)
      = shapeCast S2x1024x128 (Region0.selArr (V5 m ρ) c) shapeCasts_S2048x128_S2x1024x128 := by
  have h : (W7 m ρ c (Proc.devRef .tc main_v15) : Vec Ideal S2x1024x128 .f32)
      = shapeCast S2x1024x128 (W6 m ρ c (Proc.devRef .tc main_v14_0) : Vec Ideal S2048x128 .f32) shapeCasts_S2048x128_S2x1024x128 := by
    dsimp only [W7, hostOps1]
    after_results <;> rfl
  rw [h]
  exact congrArg (fun A : Vec Ideal S2048x128 .f32 => shapeCast S2x1024x128 A shapeCasts_S2048x128_S2x1024x128)
    ((W6_arr m ρ c 5).trans (Region0.final5 (V5 m ρ) c))

/-! ## The two result buffers -/

/-- THE FIRST RESULT: table rows by token. -/
theorem res_emb (c : Dev nD) :
    (W8 m ρ c (Proc.devRef .tc main_v15) : Vec Ideal S2x1024x128 .f32) = embArr (xTok m c) (xTab m c) := by
  rw [show W8 m ρ c (Proc.devRef .tc main_v15) = W7 m ρ c (Proc.devRef .tc main_v15) from W8_of_ne m ρ c main_v15 (by decide)]
  rw [mid_emb]
  funext i
  obtain ⟨b, l, d, rfl⟩ : ∃ (b : Fin 2) (l : Fin 1024) (d : Fin 128), i = ix3 b l d := ⟨i 0, i 1, i 2, eq_ix3 i⟩
  rw [shapeCast_apply (Region0.selArr (V5 m ρ) c) shapeCasts_S2048x128_S2x1024x128 (ix3 b l d) (ix2 (tokNo b l) d) (by
    rw [Shape.rowMajor_val_two, Shape.rowMajor_val_three]
    show (b.val * 1024 + l.val) * 128 + d.val = (b.val * 1024 + l.val) * 128 + d.val
    rfl)]
  exact sel_entry m ρ c b l d

/-- THE SECOND RESULT: the pair array. -/
theorem res_pair (c : Dev nD) :
    (W8 m ρ c (Proc.devRef .tc main_v16) : Vec Ideal S2x128x1024x1024 .f32)
      = pairArr (xTok m c) (xTab m c) (xW m c) (xBias m c) := by
  refine (W8_arr m ρ c 2).trans ((Region1.final2 (V7 m ρ) c).trans ?_)
  rw [show Region1.aP (V7 m ρ) c = Region0.projArr1 (V5 m ρ) c from mid_P m ρ c,
    show Region1.aQ (V7 m ρ) c = Region0.projArr2 (V5 m ρ) c from mid_Q m ρ c]
  funext i
  obtain ⟨b, e, p, q, rfl⟩ : ∃ (b : Fin 2) (e : Fin 128) (p q : Fin 1024), i = ix4 b e p q := ⟨i 0, i 1, i 2, i 3, eq_ix4 i⟩
  show Region0.p1At (V5 m ρ) c (tokNo b p) e + Region0.p2At (V5 m ρ) c (tokNo b q) e = pairAt (xTok m c) (xTab m c) (xW m c) (xBias m c) b e p q
  rw [p1_entry, p2_entry]
  rfl

end Cert.KernelIdeal.KernelValue

end
-- ==== Proof.RefValue.lean ====
/-
  The reference's two results are the specification's two arrays.

  The reference takes `table[x]`: after wrapping a negative index it gathers, and a gather reads each start index as a
  signed integer clamped so that the one-row slice fits the five-row table — the row `row (wrap x)` of the
  specification.  It then contracts the gathered rows with the left and the right half of the weights over the 128
  features (two sums), adds the two projections at (b, i) and (b, j), adds the bias, and permutes the axes to
  (b, e, i, j).  That is the specification's entry but for the grouping of the three summands, which addition on the
  extended reals does not see.
-/
import proofs.«416537_j11304353923370_3_alg».proof.Proof.Gen.ReferenceIdeal.Read
import proofs.«416537_j11304353923370_3_alg».proof.Proof.Spec

noncomputable section

open scoped BigOperators

namespace Cert.ReferenceIdeal.RefValue

open Cert.ReferenceIdeal Cert.ReferenceIdeal.Gen Cert.ReferenceIdeal.Read Cert.EmbedPair
open Idealize.ShloMosaic Idealize.ShloMosaic.ValueIdx

variable (x : STok.Idx → BitVec 32) (T : STab.Idx → EReal) (W : SW.Idx → EReal) (bias : SB.Idx → EReal)

/-- The wrapped index array at (b, l, 0). -/
theorem wrapped_apply (b : Fin 2) (l : Fin 1024) :
    val_main_v5 (F := Ideal) x (ix3 b l (0 : Fin 1)) = wrap (x (ix2 b l)) := by
  rw [val_main_v5_apply, val_main_v4_apply, val_main_v1_apply, val_main_v3_apply, val_main_v0_apply, val_main_v2_apply,
    val_main_c_apply, val_main_c_0_apply]
  have hk : idx_main_v5 (ix3 b l (0 : Fin 1)) = ix2 b l := funext fun a => Fin.ext (by
    match a with
    | ⟨0, _⟩ => rfl
    | ⟨1, _⟩ => rfl)
  rw [hk]
  rfl

/-- THE GATHER at (b, l, d): the table at the row the wrapped, clamped index names. -/
theorem gathered_apply (b : Fin 2) (l : Fin 1024) (d : Fin 128) :
    val_main_v6 (F := Ideal) x T (ix3 b l d) = embAt x T b l d := by
  unfold val_main_v6 Host.gather embAt tokRow
  refine congrArg T (funext fun a => Fin.ext ?_)
  have hsi : gather_S5x128_S2x1024x1_S2x1024x128_2_0_n_n_0_2_1128.siIdx (ix3 b l d)
      ⟨List.idxOf (0 : Fin 2) gather_S5x128_S2x1024x1_S2x1024x128_2_0_n_n_0_2_1128.startIndexMap,
        List.idxOf_lt_length_iff.2 (List.mem_singleton.mpr rfl)⟩ = ix3 b l (0 : Fin 1) := by
    funext c; refine Fin.ext ?_
    match c with
    | ⟨0, _⟩ => rfl
    | ⟨1, _⟩ => rfl
    | ⟨2, _⟩ => rfl
  match a with
  | ⟨0, _⟩ =>
    show gather_S5x128_S2x1024x1_S2x1024x128_2_0_n_n_0_2_1128.start (ix3 b l d) (val_main_v5 (F := Ideal) x) 0
        + gather_S5x128_S2x1024x1_S2x1024x128_2_0_n_n_0_2_1128.batchCoord (ix3 b l d) 0
        + gather_S5x128_S2x1024x1_S2x1024x128_2_0_n_n_0_2_1128.offCoord (ix3 b l d) 0 = (row (wrap (x (ix2 b l)))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S5x128_S2x1024x1_S2x1024x128_2_0_n_n_0_2_1128.startIndexMap from List.mem_singleton.mpr rfl)]
    rw [hsi, wrapped_apply]
    rfl
  | ⟨1, _⟩ =>
    show gather_S5x128_S2x1024x1_S2x1024x128_2_0_n_n_0_2_1128.start (ix3 b l d) (val_main_v5 (F := Ideal) x) 1
        + gather_S5x128_S2x1024x1_S2x1024x128_2_0_n_n_0_2_1128.batchCoord (ix3 b l d) 1
        + gather_S5x128_S2x1024x1_S2x1024x128_2_0_n_n_0_2_1128.offCoord (ix3 b l d) 1 = d.val
    rw [GatherDims.batchCoord_eq_zero _ _ _ List.not_mem_nil]
    have hs : gather_S5x128_S2x1024x1_S2x1024x128_2_0_n_n_0_2_1128.start (ix3 b l d) (val_main_v5 (F := Ideal) x) 1 = 0 := by
      unfold GatherDims.start
      rw [dif_neg (show ¬ (1 : Fin 2) ∈ gather_S5x128_S2x1024x1_S2x1024x128_2_0_n_n_0_2_1128.startIndexMap by decide)]
    have ho : gather_S5x128_S2x1024x1_S2x1024x128_2_0_n_n_0_2_1128.offCoord (ix3 b l d) 1 = d.val := by
      unfold GatherDims.offCoord
      rw [dif_pos (show (1 : Fin 2) ∈ gather_S5x128_S2x1024x1_S2x1024x128_2_0_n_n_0_2_1128.sKept by decide)]
      rfl
    rw [hs, ho]
    omega

/-- THE FIRST RESULT: the gathered rows are the specification's first array. -/
theorem ref_emb : val_main_v6 (F := Ideal) x T = embArr x T := by
  funext i
  obtain ⟨b, l, d, rfl⟩ : ∃ (b : Fin 2) (l : Fin 1024) (d : Fin 128), i = ix3 b l d := ⟨i 0, i 1, i 2, eq_ix3 i⟩
  exact gathered_apply x T b l d

/-- THE SECOND RESULT: the reference's pair array is the specification's second array. -/
theorem ref_pair : val_main_v19 (F := Ideal) x T W bias = pairArr x T W bias := by
  funext i
  obtain ⟨b, e, p, q, rfl⟩ : ∃ (b : Fin 2) (e : Fin 128) (p q : Fin 1024), i = ix4 b e p q := ⟨i 0, i 1, i 2, i 3, eq_ix4 i⟩
  rw [val_main_v19_apply, val_main_v18_apply, val_main_v15_apply, val_main_v13_apply, val_main_v11_apply, val_main_v9_apply,
    val_main_v14_apply, val_main_v12_apply, val_main_v10_apply, val_main_v17_apply, val_main_v16_apply]
  -- the composed index functions, by coordinates
  have hL9 : ∀ k : Fin 128, lidx_main_v9 (idx_main_v11 (idx_main_v13 (idx_main_v19 (ix4 b e p q)))) k = ix3 b p k := fun k =>
    funext fun a => Fin.ext (by
      match a with
      | ⟨0, _⟩ => rfl
      | ⟨1, _⟩ => rfl
      | ⟨2, _⟩ => rfl)
  have hR9 : ∀ k : Fin 128, idx_main_v7 (ridx_main_v9 (idx_main_v11 (idx_main_v13 (idx_main_v19 (ix4 b e p q)))) k)
      = ix2 e (⟨k.val, by omega⟩ : Fin 256) := fun k =>
    funext fun a => Fin.ext (by
      match a with
      | ⟨0, _⟩ => rfl
      | ⟨1, _⟩ => rfl)
  have hL10 : ∀ k : Fin 128, lidx_main_v10 (idx_main_v12 (idx_main_v14 (idx_main_v19 (ix4 b e p q)))) k = ix3 b q k := fun k =>
    funext fun a => Fin.ext (by
      match a with
      | ⟨0, _⟩ => rfl
      | ⟨1, _⟩ => rfl
      | ⟨2, _⟩ => rfl)
  have hR10 : ∀ k : Fin 128, idx_main_v8 (ridx_main_v10 (idx_main_v12 (idx_main_v14 (idx_main_v19 (ix4 b e p q)))) k)
      = ix2 e (⟨128 + k.val, by omega⟩ : Fin 256) := fun k =>
    funext fun a => Fin.ext (by
      match a with
      | ⟨0, _⟩ => rfl
      | ⟨1, _⟩ => rfl)
  have hB : idx_main_v16 (idx_main_v17 (idx_main_v19 (ix4 b e p q))) = ix1 e :=
    funext fun a => Fin.ext (by
      match a with
      | ⟨0, _⟩ => rfl)
  simp only [val_main_v7_apply, val_main_v8_apply, hL9, hR9, hL10, hR10, hB, gathered_apply, Ideal.addf_def]
  exact pairAt_assoc x T W bias b e p q

end Cert.ReferenceIdeal.RefValue

end
-- ==== Proof.lean ====
/-
  The certificate of the embedding-and-pairing kernel against its jnp reference.

  Both programs compute, from token indices x, a five-row table T, a weight matrix W and a bias:
  * S(b, l, d) = T(row(x(b, l)), d), where a negative index counts from the end of the table and an index outside
    0..4 is clamped to the nearest end;
  * M(b, e, i, j) = P₁(b, i, e) + P₂(b, j, e) + bias(e), with P₁ and P₂ the projections of a token's row through the
    left and right 128 columns of W.

  The kernel wraps and clamps the indices on the host, selects the row by a five-term indicator sum (exact: a zero
  indicator kills its term and the one-indicator keeps it, for every extended real), projects by two matrix products
  into zero accumulators (plain sums at the ideal values, where narrowing to bf16 is the identity), folds the bias
  into the second projection, and in a second pallas_call adds the two projections pairwise.  The reference gathers
  (a gather clamps its start index, which is the kernel's clamp), contracts, adds the two projections, then the
  bias.  The two differ only in how the three summands are grouped, and addition of extended reals is associative:
  no use is made of the finiteness of the inputs.

  The three frames are the generated ones (the reference's is its generated run with the results dropped); the
  idealization rewrote nothing, so `preserves` is trivial.
-/
import proofs.«416537_j11304353923370_3_alg».proof.Defs
import proofs.«416537_j11304353923370_3_alg».proof.Proof.Gen.Kernel
import proofs.«416537_j11304353923370_3_alg».proof.Proof.Gen.Kernel.Skeleton
import proofs.«416537_j11304353923370_3_alg».proof.Proof.Gen.Kernel.Launch
import proofs.«416537_j11304353923370_3_alg».proof.Proof.Gen.Kernel.Points
import proofs.«416537_j11304353923370_3_alg».proof.Proof.Gen.Kernel.Frame
import proofs.«416537_j11304353923370_3_alg».proof.Proof.Gen.KernelIdeal
import proofs.«416537_j11304353923370_3_alg».proof.Proof.Gen.KernelIdeal.Skeleton
import proofs.«416537_j11304353923370_3_alg».proof.Proof.Gen.KernelIdeal.Launch
import proofs.«416537_j11304353923370_3_alg».proof.Proof.Gen.KernelIdeal.Points
import proofs.«416537_j11304353923370_3_alg».proof.Proof.Gen.KernelIdeal.Frame
import proofs.«416537_j11304353923370_3_alg».proof.Proof.Gen.ReferenceIdeal
import proofs.«416537_j11304353923370_3_alg».proof.Proof.Gen.Pre_finite_inputs
import proofs.«416537_j11304353923370_3_alg».proof.Proof.Gen.ReferenceIdeal.Run
import proofs.«416537_j11304353923370_3_alg».proof.Proof.Gen.ReferenceIdeal.Read
import proofs.«416537_j11304353923370_3_alg».proof.Proof.RunValues
import proofs.«416537_j11304353923370_3_alg».proof.Proof.KernelValue
import proofs.«416537_j11304353923370_3_alg».proof.Proof.RefValue
import Idealize.ShloMosaic.Adequacy
import Idealize.ShloMosaic.Init

noncomputable section

namespace Cert.Proof

open Idealize.ShloMosaic Idealize.SL.Sem Cert.EmbedPair

/-- The word-level kernel runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal values both programs end with the specification's two arrays of the (agreeing) arguments. -/
theorem algebraic : Cert.algebraic_KernelIdeal_ReferenceIdeal := by
  intro m ρ m' ρ' _ hagree
  refine ⟨fun c => embArr (Cert.KernelIdeal.HostIn.xTok m c) (Cert.KernelIdeal.HostIn.xTab m c),
    fun c => pairArr (Cert.KernelIdeal.HostIn.xTok m c) (Cert.KernelIdeal.HostIn.xTab m c) (Cert.KernelIdeal.HostIn.xW m c)
      (Cert.KernelIdeal.HostIn.xBias m c), ?_, ?_⟩
  · refine (θ_run Cert.KernelIdeal.defs _ _).mono (fun _ h c => ?_) (Cert.KernelIdeal.RunValues.run_values (F := Ideal) m ρ)
    exact ⟨(h c).1.trans (Cert.KernelIdeal.KernelValue.res_emb m ρ c),
      (h c).2.1.trans (Cert.KernelIdeal.KernelValue.res_pair m ρ c), (h c).2.2⟩
  · refine (θ_run Cert.ReferenceIdeal.defs _ _).mono (fun _ h c => ?_) (Cert.ReferenceIdeal.Value.run (F := Ideal) m' ρ')
    obtain ⟨h6, h19, hargs⟩ := h c
    obtain ⟨a0, a1, a2, a3⟩ := hagree c
    refine ⟨?_, ?_, hargs⟩
    · rw [h6, Cert.ReferenceIdeal.Read.val_main_v6_eq, Cert.ReferenceIdeal.RefValue.ref_emb, a0, a1]
    · rw [h19, Cert.ReferenceIdeal.Read.val_main_v19_eq, Cert.ReferenceIdeal.RefValue.ref_pair, a0, a1, a2, a3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
